-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x32 : Shape := ⟨2, ![1600000, 32]⟩
abbrev S1600000 : Shape := ⟨1, ![1600000]⟩
abbrev S64x128 : Shape := ⟨2, ![64, 128]⟩
abbrev S128x32 : Shape := ⟨2, ![128, 32]⟩
abbrev S128 : Shape := ⟨1, ![128]⟩
abbrev S64 : Shape := ⟨1, ![64]⟩
abbrev S128x128 : Shape := ⟨2, ![128, 128]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  slices_S2x1600000_S1x1600000_0_0 : S2x1600000.Slices ![0, 0] S1x1600000
  shapeCasts_S1x1600000_S1600000 : S1x1600000.ShapeCasts S1600000

variable [Facts]

def fn_part4 {F : FTy → Type} [FloatOps F] (main_arg1 : IVec S2x1600000 32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : IVec S1x1600000 32 := (extractStridedSlice S1x1600000 ![0, 0] · slices_S2x1600000_S1x1600000_0_0) main_arg1
  let main_v75 : IVec S1600000 32 := shapeCast S1600000 main_v74 shapeCasts_S1x1600000_S1600000
  let main_c_28 : IVec S_ 32 := constantI S_ 32 4294867296#32
  let main_v76 : IVec S1600000 32 := broadcastInDim S1600000 ![] bcast_S_S1600000 main_c_28
  let main_v77 : IVec S1600000 1 := cmpi .sge main_v75 main_v76
  let main_v78 : IVec S1x1600000 32 := (extractStridedSlice S1x1600000 ![0, 0] · slices_S2x1600000_S1x1600000_0_0) main_arg1
  let main_v79 : IVec S1600000 32 := shapeCast S1600000 main_v78 shapeCasts_S1x1600000_S1600000
  let main_c_29 : IVec S_ 32 := constantI S_ 32 100000#32
  let main_v80 : IVec S1600000 32 := broadcastInDim S1600000 ![] bcast_S_S1600000 main_c_29
  let main_v81 : IVec S1600000 1 := cmpi .slt main_v79 main_v80
  let main_v82 : IVec S1600000 1 := andi main_v77 main_v81
  let main_c_30 : IVec S_ 1 := constantI S_ 1 1#1
  let main_v83 : IVec S_ 1 := (fun x v => Host.reduce IntOp.andi x v reducesTo_S1600000_S_d0 h_S_) main_v82 main_c_30
  let main_v84 : IVec S_ 1 := andi main_v73 main_v83
  main_v84

def fn_part3 {F : FTy → Type} [FloatOps F] (main_arg1 : IVec S2x1600000 32) (main_arg12 : FVec F S128x128 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_v63 main_v67

def fn_part2 {F : FTy → Type} [FloatOps F] (main_arg1 : IVec S2x1600000 32) (main_arg8 : FVec F S64x128 .f32) (main_arg9 : FVec F S64 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_arg14 main_arg15 main_v48 main_v49 main_v50

def fn_part1 {F : FTy → Type} [FloatOps F] (main_arg1 : IVec S2x1600000 32) (main_arg5 : FVec F S64x128 .f32) (main_arg6 : FVec F S128x32 .f32) (main_arg7 : FVec F S128 .f32) (main_arg8 : FVec F S64x128 .f32) (main_arg9 : FVec F S64 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128x32 .f32 := Host.absf main_arg6
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S1600000x32 .f32) (main_arg3 : FVec F S1600000 .f32) (main_arg4 : FVec F S64x128 .f32) (main_arg5 : FVec F S64x128 .f32) (main_arg6 : FVec F S128x32 .f32) (main_arg7 : FVec F S128 .f32) (main_arg8 : FVec F S64x128 .f32) (main_arg9 : FVec F S64 .f32) (main_arg10 : FVec F S128x128 .f32) (main_arg11 : FVec F S128 .f32) (main_arg12 : FVec F S128x128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S1600000 .f32 := Host.absf main_arg3
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S1600000x32 : Shape := ⟨2, ![1600000, 32]⟩
abbrev S1600000 : Shape := ⟨1, ![1600000]⟩
abbrev S64x128 : Shape := ⟨2, ![64, 128]⟩
abbrev S128x32 : Shape := ⟨2, ![128, 32]⟩
abbrev S128 : Shape := ⟨1, ![128]⟩
abbrev S64 : Shape := ⟨1, ![64]⟩
abbrev S128x128 : Shape := ⟨2, ![128, 128]⟩
abbrev S1x1600000 : Shape := ⟨2, ![1, 1600000]⟩
abbrev S128x64 : Shape := ⟨2, ![128, 64]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S32x128 : Shape := ⟨2, ![32, 128]⟩
abbrev S1x128 : Shape := ⟨2, ![1, 128]⟩
abbrev S1x64 : Shape := ⟨2, ![1, 64]⟩
abbrev S6400x32 : Shape := ⟨2, ![6400, 32]⟩
abbrev S6400x1 : Shape := ⟨2, ![6400, 1]⟩
abbrev S6400x64 : Shape := ⟨2, ![6400, 64]⟩
abbrev S6400x128 : Shape := ⟨2, ![6400, 128]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩

abbrev nBuf : Space → Nat
  | .hbm => 62
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S1600000, .f32⟩
  | .hbm, ⟨4, _⟩ => ⟨S64x128, .f32⟩
  | .hbm, ⟨5, _⟩ => ⟨S64x128, .f32⟩
  | .hbm, ⟨6, _⟩ => ⟨S128x32, .f32⟩
  | .hbm, ⟨7, _⟩ => ⟨S128, .f32⟩
  | .hbm, ⟨8, _⟩ => ⟨S64x128, .f32⟩
  | .hbm, ⟨9, _⟩ => ⟨S64, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S128x64, .f32⟩
  | .hbm, ⟨21, _⟩ => ⟨S100000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1, .i32⟩
  | .hbm, ⟨31, _⟩ => ⟨S_, .i32⟩
  | .hbm, ⟨32, _⟩ => ⟨S1600000x1, .i32⟩
  | .hbm, ⟨33, _⟩ => ⟨S1600000x1, .i1⟩
  | .hbm, ⟨34, _⟩ => ⟨S1x1, .i32⟩
  | .hbm, ⟨35, _⟩ => ⟨S1600000x1, .i32⟩
  | .hbm, ⟨36, _⟩ => ⟨S1600000x1, .i1⟩
  | .hbm, ⟨37, _⟩ => ⟨S1600000x1, .i1⟩
  | .hbm, ⟨38, _⟩ => ⟨S_, .i1⟩
  | .hbm, ⟨39, _⟩ => ⟨S1600000, .i1⟩
  | .hbm, ⟨40, _⟩ => ⟨S1600000x64, .f32⟩
  | .hbm, ⟨41, _⟩ => ⟨S1600000x64, .i1⟩
  | .hbm, ⟨42, _⟩ => ⟨S_, .f32⟩
  | .hbm, ⟨43, _⟩ => ⟨S1600000x64, .f32⟩
  | .hbm, ⟨44, _⟩ => ⟨S1600000x64, .f32⟩
  | .hbm, ⟨45, _⟩ => ⟨S32x128, .f32⟩
  | .hbm, ⟨46, _⟩ => ⟨S128x64, .f32⟩
  | .hbm, ⟨47, _⟩ => ⟨S1x128, .f32⟩
  | .hbm, ⟨48, _⟩ => ⟨S1x64, .f32⟩
  | .hbm, ⟨49, _⟩ => ⟨S1600000x1, .f32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S128x128, .f32⟩
  | .hbm, ⟨56, _⟩ => ⟨S128x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S6400x32, .f32⟩
  | .local _ .vmem, ⟨6, _⟩ => ⟨S6400x32, .f32⟩
  | .local _ .vmem, ⟨7, _⟩ => ⟨S6400x1, .f32⟩
  | .local _ .vmem, ⟨8, _⟩ => ⟨S6400x1, .f32⟩
  | .local _ .vmem, ⟨9, _⟩ => ⟨S6400x64, .f32⟩
  | .local _ .vmem, ⟨10, _⟩ => ⟨S6400x64, .f32⟩
  | .local _ .vmem, ⟨11, _⟩ => ⟨S32x128, .f32⟩
  | .local _ .vmem, ⟨12, _⟩ => ⟨S1x128, .f32⟩
  | .local _ .vmem, ⟨13, _⟩ => ⟨S128x64, .f32⟩
  | .local _ .vmem, ⟨14, _⟩ => ⟨S1x64, .f32⟩
  | .local _ .vmem, ⟨15, _⟩ => ⟨S6400x64, .f32⟩
  | .local _ .vmem, ⟨16, _⟩ => ⟨S6400x64, .f32⟩
  | .local _ .vmem, ⟨17, _⟩ => ⟨S5000x64, .f32⟩
  | .local _ .vmem, ⟨18, _⟩ => ⟨S5000x64, .f32⟩
  | .local _ .vmem, ⟨19, _⟩ => ⟨S5000x128, .f32⟩
  | .local _ .vmem, ⟨20, _⟩ => ⟨S5000x128, .f32⟩
  | .local _ .vmem, ⟨21, _⟩ => ⟨S64x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6400x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x128_S128x64_1_0 : S64x128.Transposes [1, 0] S128x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  transposes_S128x32_S32x128_1_0 : S128x32.Transposes [1, 0] S32x128
  shapeCasts_S128_S1x128 : S128.ShapeCasts S1x128
  shapeCasts_S64_S1x64 : S64.ShapeCasts S1x64
  shapeCasts_S1600000_S1600000x1 : S1600000.ShapeCasts S1600000x1
  inb_S6400x32_S6400x32_0_0 : ∀ a, (![0, 0] : Fin 2 → Nat) a + S6400x32.size a ≤ S6400x32.size a
  h_S6400x32 : 0 < S6400x32.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x64 : S6400x1.Broadcasts S6400x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bcast_S_S100000x64 : S_.BroadcastsInDim S100000x64 (![] : Fin 0 → Fin S100000x64.rank)
  transposes_S128x128_S128x128_1_0 : S128x128.Transposes [1, 0] S128x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  dot_S6400x32_S32x128_S6400x128_1_0_0_1_n_n_wf : DotDims.WF S6400x32 S32x128 S6400x128 [1] [0] [0] [1] [] []
  dot_S6400x128_S128x64_S6400x64_1_0_0_1_n_n_wf : DotDims.WF S6400x128 S128x64 S6400x64 [1] [0] [0] [1] [] []
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x32.size a ≤ S1600000x32.size a
  hwx1_0 : ∀ i : grid1.Coords, EltTy.bits .f32 = 32 ∨ (Rect.block (s := S1600000x32) S6400x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S1600000x1.size a
  hwx1_1 : ∀ i : grid1.Coords, EltTy.bits .f32 = 32 ∨ (Rect.block (s := S1600000x1) S6400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x64.size a ≤ S1600000x64.size a
  hwx1_2 : ∀ i : grid1.Coords, EltTy.bits .f32 = 32 ∨ (Rect.block (s := S1600000x64) S6400x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .f32 = 32 ∨ (Rect.block (s := S32x128) S32x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x64.size a ≤ S1600000x64.size a
  hwx1_7 : ∀ i : grid1.Coords, EltTy.bits .f32 = 32 ∨ (Rect.block (s := S1600000x64) S6400x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x32_S32x128_S6400x128_1_0_0_1_n_n : DotDims S6400x32 S32x128 S6400x128 where
  lhsContracting := [1]
  rhsContracting := [0]
  lhsNonContracting := [0]
  rhsNonContracting := [1]
  lhsBatch := []
  rhsBatch := []
  wf := dot_S6400x32_S32x128_S6400x128_1_0_0_1_n_n_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S6400x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S6400x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S6400x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v15) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v20) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v21) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v22) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x32 : Shape := ⟨2, ![1600000, 32]⟩
abbrev S1600000 : Shape := ⟨1, ![1600000]⟩
abbrev S64x128 : Shape := ⟨2, ![64, 128]⟩
abbrev S128x32 : Shape := ⟨2, ![128, 32]⟩
abbrev S128 : Shape := ⟨1, ![128]⟩
abbrev S64 : Shape := ⟨1, ![64]⟩
abbrev S128x128 : Shape := ⟨2, ![128, 128]⟩
abbrev S1x1600000 : Shape := ⟨2, ![1, 1600000]⟩
abbrev S32x128 : Shape := ⟨2, ![32, 128]⟩
abbrev S1600000x128 : Shape := ⟨2, ![1600000, 128]⟩
abbrev S1x128 : Shape := ⟨2, ![1, 128]⟩
abbrev S_ : Shape := ⟨0, ![]⟩
abbrev S128x64 : Shape := ⟨2, ![128, 64]⟩
abbrev S1600000x64 : Shape := ⟨2, ![1600000, 64]⟩
abbrev S1x64 : Shape := ⟨2, ![1, 64]⟩
abbrev S1600000x1 : Shape := ⟨2, ![1600000, 1]⟩
abbrev S100000 : Shape := ⟨1, ![100000]⟩
abbrev S100000x1 : Shape := ⟨2, ![100000, 1]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S1600000, .f32⟩
  | .hbm, ⟨4, _⟩ => ⟨S64x128, .f32⟩
  | .hbm, ⟨5, _⟩ => ⟨S64x128, .f32⟩
  | .hbm, ⟨6, _⟩ => ⟨S128x32, .f32⟩
  | .hbm, ⟨7, _⟩ => ⟨S128, .f32⟩
  | .hbm, ⟨8, _⟩ => ⟨S64x128, .f32⟩
  | .hbm, ⟨9, _⟩ => ⟨S64, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S32x128, .f32⟩
  | .hbm, ⟨21, _⟩ => ⟨S1600000x128, .f32⟩
  | .hbm, ⟨22, _⟩ => ⟨S1x128, .f32⟩
  | .hbm, ⟨23, _⟩ => ⟨S1600000x128, .f32⟩
  | .hbm, ⟨24, _⟩ => ⟨S1600000x128, .f32⟩
  | .hbm, ⟨25, _⟩ => ⟨S1600000x128, .f32⟩
  | .hbm, ⟨26, _⟩ => ⟨S1600000x128, .f32⟩
  | .hbm, ⟨27, _⟩ => ⟨S_, .f32⟩
  | .hbm, ⟨28, _⟩ => ⟨S1600000x128, .f32⟩
  | .hbm, ⟨29, _⟩ => ⟨S1600000x128, .f32⟩
  | .hbm, ⟨30, _⟩ => ⟨S_, .f32⟩
  | .hbm, ⟨31, _⟩ => ⟨S1600000x128, .f32⟩
  | .hbm, ⟨32, _⟩ => ⟨S1600000x128, .f32⟩
  | .hbm, ⟨33, _⟩ => ⟨S1600000x128, .f32⟩
  | .hbm, ⟨34, _⟩ => ⟨S128x64, .f32⟩
  | .hbm, ⟨35, _⟩ => ⟨S1600000x64, .f32⟩
  | .hbm, ⟨36, _⟩ => ⟨S1x64, .f32⟩
  | .hbm, ⟨37, _⟩ => ⟨S1600000x64, .f32⟩
  | .hbm, ⟨38, _⟩ => ⟨S1600000x64, .f32⟩
  | .hbm, ⟨39, _⟩ => ⟨S1600000x1, .f32⟩
  | .hbm, ⟨40, _⟩ => ⟨S1600000x64, .f32⟩
  | .hbm, ⟨41, _⟩ => ⟨S1600000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S128x64, .f32⟩
  | .hbm, ⟨52, _⟩ => ⟨S1600000x64, .f32⟩
  | .hbm, ⟨53, _⟩ => ⟨S1600000x64, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S128x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000, .f32⟩
  | .hbm, ⟨81, _⟩ => ⟨S100000x1, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000, .f32⟩
  | .hbm, ⟨90, _⟩ => ⟨S100000x1, .f32⟩
  | .hbm, ⟨91, _⟩ => ⟨S_, .f32⟩
  | .hbm, ⟨92, _⟩ => ⟨S100000x1, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x1, .f32⟩
  | .hbm, ⟨100, _⟩ => ⟨S100000x128, .f32⟩
  | .hbm, ⟨101, _⟩ => ⟨S100000x128, .f32⟩
  | .hbm, ⟨102, _⟩ => ⟨S1x128, .f32⟩
  | .hbm, ⟨103, _⟩ => ⟨S100000x128, .f32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_0 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_1 : Ref sig .tc := ⟨.hbm, 79, rfl⟩
abbrev main_v44 : Ref sig .tc := ⟨.hbm, 80, rfl⟩
abbrev main_v45 : Ref sig .tc := ⟨.hbm, 81, rfl⟩
abbrev main_cst_2 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_3 : Ref sig .tc := ⟨.hbm, 88, rfl⟩
abbrev main_v51 : Ref sig .tc := ⟨.hbm, 89, rfl⟩
abbrev main_v52 : Ref sig .tc := ⟨.hbm, 90, rfl⟩
abbrev main_cst_4 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_5 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x32_S32x128_1_0 : S128x32.Transposes [1, 0] S32x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  transposes_S64x128_S128x64_1_0 : S64x128.Transposes [1, 0] S128x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S1600000 : S_.BroadcastsInDim S1600000 (![] : Fin 0 → Fin S1600000.rank)
  bcast_S_S100000x128 : S_.BroadcastsInDim S100000x128 (![] : Fin 0 → Fin S100000x128.rank)
  transposes_S128x128_S128x128_1_0 : S128x128.Transposes [1, 0] S128x128
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S1600000x32_S32x128_S1600000x128_1_0_0_1_n_n_wf : DotDims.WF S1600000x32 S32x128 S1600000x128 [1] [0] [0] [1] [] []
  dot_S1600000x128_S128x64_S1600000x64_1_0_0_1_n_n_wf : DotDims.WF S1600000x128 S128x64 S1600000x64 [1] [0] [0] [1] [] []
  gather_S100000x128_S1600000x1_S1600000x128_1_0_n_n_0_1_1128_wf : GatherDims.WF S100000x128 S1600000x1 S1600000x128 [1] [0] [] [0] [] 1 ![1, 128]
  dot_S1600000x64_S64x128_S1600000x128_1_0_0_1_n_n_wf : DotDims.WF S1600000x64 S64x128 S1600000x128 [1] [0] [0] [1] [] []
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S1600000x32_S32x128_S1600000x128_1_0_0_1_n_n : DotDims S1600000x32 S32x128 S1600000x128 where
  lhsContracting := [1]
  rhsContracting := [0]
  lhsNonContracting := [0]
  rhsNonContracting := [1]
  lhsBatch := []
  rhsBatch := []
  wf := dot_S1600000x32_S32x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The message-passing layer as functions of its argument arrays, on the extended reals.

  A node has 128 features and a stalk has 64.  Every edge `e` carries a source word and a target word, 32 radial
  features and an envelope.  The layer
    * projects each node's features into the stalk:        proj n s = Σ_k x[n,k] · W_send[s,k];
    * filters each edge:  hid e k = Σ_j rbf[e,j] · f1_w[k,j] + f1_b[k],
                          phi e s = (Σ_k silu(hid e k) · f2_w[s,k] + f2_b[s]) · envelope[e],
      with silu h = h · 1/(1 + e^(-h));
    * forms the stalk message of an edge from its source row: stalk e s = phi e s · proj (row of e's source) s;
    * adds the messages of the edges that point at a node, maps the sum back to node features through W_recv, and
    * passes the result through a gate, a residual connection and a normalisation of each row (`tail`).
  The order in which "add over edges" and "multiply by W_recv" are done is the one place where two programs computing
  this layer may differ; everything else is written here once.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals. -/
abbrev A2 (a b : Nat) : Type := (⟨2, ![a, b]⟩ : Shape).Idx → EReal
/-- A vector of extended reals. -/
abbrev A1 (a : Nat) : Type := (⟨1, ![a]⟩ : Shape).Idx → EReal
/-- A matrix of 32-bit words. -/
abbrev I2 (a b : Nat) : Type := (⟨2, ![a, b]⟩ : Shape).Idx → BitVec 32

/-- `silu h = h · logistic h`. -/
def silu (h : EReal) : EReal := h * Ideal.logistic h

/-- A source word with a negative word counted from the end: `s + 100000` when `s < 0`, else `s`. -/
def wrapW (s : BitVec 32) : BitVec 32 := Scalar.select (IntOp.cmpi .slt s 0#32) (IntOp.addi s 100000#32) s

/-- The row of the node table a source word selects: the wrapped word read signed and clamped into `[0, 99999]`. -/
def rowOf (s : BitVec 32) : Fin 100000 := ⟨min (wrapW s).toInt.toNat (100000 - 1), by omega⟩

/-- The edges' target words as a column of scatter indices. -/
def tgtIdx (ei : I2 2 1600000) : I2 1600000 1 := fun j => ei (ix2 1 (j 0))

/-- Node `n`'s features projected into the stalk, component `s`. -/
def proj (x : A2 100000 128) (ws : A2 64 128) (n : Fin 100000) (s : Fin 64) : EReal :=
  ∑ k : Fin 128, x (ix2 n k) * ws (ix2 s k)

/-- The hidden layer of edge `e`'s filter before its activation, unit `k`. -/
def hid (rbf : A2 1600000 32) (f1w : A2 128 32) (f1b : A1 128) (e : Fin 1600000) (k : Fin 128) : EReal :=
  (∑ j : Fin 32, rbf (ix2 e j) * f1w (ix2 k j)) + f1b (ix1 k)

/-- Edge `e`'s filter, stalk component `s`, scaled by the edge's envelope. -/
def phi (rbf : A2 1600000 32) (env : A1 1600000) (f1w : A2 128 32) (f1b : A1 128) (f2w : A2 64 128) (f2b : A1 64)
    (e : Fin 1600000) (s : Fin 64) : EReal :=
  ((∑ k : Fin 128, silu (hid rbf f1w f1b e k) * f2w (ix2 s k)) + f2b (ix1 s)) * env (ix1 e)

/-- Edge `e`'s stalk message: its filter times the projection of its source node. -/
def stalk (x : A2 100000 128) (ei : I2 2 1600000) (rbf : A2 1600000 32) (env : A1 1600000) (ws : A2 64 128)
    (f1w : A2 128 32) (f1b : A1 128) (f2w : A2 64 128) (f2b : A1 64) (e : Fin 1600000) (s : Fin 64) : EReal :=
  phi rbf env f1w f1b f2w f2b e s * proj x ws (rowOf (ei (ix2 0 e))) s

/-- All stalk messages as one array. -/
def stalkA (x : A2 100000 128) (ei : I2 2 1600000) (rbf : A2 1600000 32) (env : A1 1600000) (ws : A2 64 128)
    (f1w : A2 128 32) (f1b : A1 128) (f2w : A2 64 128) (f2b : A1 64) : A2 1600000 64 :=
  fun j => stalk x ei rbf env ws f1w f1b f2w f2b (j 0) (j 1)

/-- Stalk messages mapped back to node features: row `j 0` of `u` times `W_recv`, feature `j 1`. -/
def recv {R : Nat} (u : A2 R 64) (wr : A2 64 128) : A2 R 128 :=
  fun j => ∑ s : Fin 64, u (ix2 (j 0) s) * wr (ix2 s (j 1))

/-- The gate of one row: `silu(a · g1_wᵀ + g1_b) · g2_wᵀ + g2_b`, feature `c`. -/
def gateRow (a : Fin 128 → EReal) (g1w : A2 128 128) (g1b : A1 128) (g2w : A2 128 128) (g2b : A1 128) (c : Fin 128) : EReal :=
  (∑ k : Fin 128, silu ((∑ d : Fin 128, a d * g1w (ix2 k d)) + g1b (ix1 k)) * g2w (ix2 c k)) + g2b (ix1 c)

/-- The mean of a row of 128 entries (the divisor is the word of 128.0). -/
def meanRow (y : Fin 128 → EReal) : EReal := Ideal.div (∑ c : Fin 128, y c) (Ideal.ofBits .f32 0x43000000#32)

/-- A row normalised: centred, scaled by the reciprocal root of its variance plus the word of 1e-5, then the affine map. -/
def lnRow (y : Fin 128 → EReal) (lng lnb : A1 128) (c : Fin 128) : EReal :=
  (y c - meanRow y)
      * Ideal.rsqrt (Ideal.div (∑ c' : Fin 128, (y c' - meanRow y) * (y c' - meanRow y)) (Ideal.ofBits .f32 0x43000000#32)
          + Ideal.ofBits .f32 0x3727C5AC#32)
      * lng (ix1 c)
    + lnb (ix1 c)

/-- The layer's last part, from the aggregated node features `a`: residual plus gate, each row normalised. -/
def tail (a : A2 100000 128) (x : A2 100000 128) (g1w : A2 128 128) (g1b : A1 128) (g2w : A2 128 128) (g2b : A1 128)
    (lng lnb : A1 128) : A2 100000 128 :=
  fun j => lnRow (fun c => x (ix2 (j 0) c) + gateRow (fun d => a (ix2 (j 0) d)) g1w g1b g2w g2b c) lng lnb (j 1)

end Cert.Spec

end
-- ==== Proof.KArgs.lean ====
/-
  The kernel program's sixteen argument arrays by name, each at the literal type of its contents: the node table `x`,
  the edges' source and target words, the radial features, the envelope, and the weights and biases of the projection,
  the filter, the gate and the normalisation.
-/
import proofs.«403891_j71880572666398_2_alg».proof.Proof.Gen.KernelIdeal.Frame
import proofs.«403891_j71880572666398_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

abbrev aX (c : Dev nD) : A2 100000 128 := m ((c : Thread nD τ).loc main_arg0)
abbrev aEi (c : Dev nD) : I2 2 1600000 := m ((c : Thread nD τ).loc main_arg1)
abbrev aRbf (c : Dev nD) : A2 1600000 32 := m ((c : Thread nD τ).loc main_arg2)
abbrev aEnv (c : Dev nD) : A1 1600000 := m ((c : Thread nD τ).loc main_arg3)
abbrev aWs (c : Dev nD) : A2 64 128 := m ((c : Thread nD τ).loc main_arg4)
abbrev aWr (c : Dev nD) : A2 64 128 := m ((c : Thread nD τ).loc main_arg5)
abbrev aF1w (c : Dev nD) : A2 128 32 := m ((c : Thread nD τ).loc main_arg6)
abbrev aF1b (c : Dev nD) : A1 128 := m ((c : Thread nD τ).loc main_arg7)
abbrev aF2w (c : Dev nD) : A2 64 128 := m ((c : Thread nD τ).loc main_arg8)
abbrev aF2b (c : Dev nD) : A1 64 := m ((c : Thread nD τ).loc main_arg9)
abbrev aG1w (c : Dev nD) : A2 128 128 := m ((c : Thread nD τ).loc main_arg10)
abbrev aG1b (c : Dev nD) : A1 128 := m ((c : Thread nD τ).loc main_arg11)
abbrev aG2w (c : Dev nD) : A2 128 128 := m ((c : Thread nD τ).loc main_arg12)
abbrev aG2b (c : Dev nD) : A1 128 := m ((c : Thread nD τ).loc main_arg13)
abbrev aLng (c : Dev nD) : A1 128 := m ((c : Thread nD τ).loc main_arg14)
abbrev aLnb (c : Dev nD) : A1 128 := m ((c : Thread nD τ).loc main_arg15)

end Cert.KernelIdeal.Val

end
-- ==== Proof.KRegion0.lean ====
/-
  The first kernel region: the projection of the node features into the stalk.

  The region walks the node table in 10 blocks of 10000 rows.  At each block it multiplies the block by the whole
  128 × 64 matrix it is given, so row `n` of the result, component `s`, is Σ_k x[n,k] · Wᵀ[k,s] whatever block `n` lies in;
  the blocks tile the table, so the array the region leaves is that function of the two arrays it read.
-/
import proofs.«403891_j71880572666398_2_alg».proof.Proof.Gen.KernelIdeal.Frame
import proofs.«403891_j71880572666398_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The product at an index

The region's one arithmetic operation contracts axis 1 of the block with axis 0 of the matrix into a zero accumulator;
at the extended reals the two truncations are identities, so entry `(p, q)` of the product is `Σ_k block[p,k] · W[k,q]`. -/

/-- The left operand's row is the result's row. -/
theorem lhs_proj_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column is the contraction index. -/
theorem lhs_proj_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row is the contraction index. -/
theorem rhs_proj_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column is the result's column. -/
theorem rhs_proj_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry `(p, q)` of the block's product with the matrix. -/
theorem proj_entry (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  refine (Ideal.matmul_constant_zero_apply dot_S10000x128_S128x64_S10000x64_1_0_0_1_n_n none _ _ (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er, shapeCast_self]
  rfl

/-- The product at any index of the block. -/
theorem proj_entry_at (x0 : Vec Ideal S10000x128 .f32) (x1 : Vec Ideal S128x64 .f32) (i : S10000x64.Idx) :
    k0_pay1 (F := Ideal) x0 x1 i = ∑ k : Fin 128, x0 (ix2 (i 0) k) * x1 (ix2 k (i 1)) :=
  (congrArg (k0_pay1 (F := Ideal) x0 x1) (eq_ix2 i)).trans (proj_entry x0 x1 (i 0) (i 1))

/-! ## The blocks of the three windows

The node table and the result are walked in blocks of 10000 rows, block `t` at point `t`; the matrix is one block. -/

theorem proj_zero_offsets : (![0, 0] : Fin 2 → Nat) = fun _ => 0 := funext fun a => by fin_cases a <;> rfl

/-- The printed index maps over the grid: the row-blocked windows are at block `(t, 0)`, the matrix at `(0, 0)`. -/
theorem proj_blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The whole-array function the region computes: row `n` of the table times the matrix. -/
abbrev tableTimes (x : A2 100000 128) (w : A2 128 64) : A2 100000 64 :=
  fun j => ∑ k : Fin 128, x (ix2 (j 0) k) * w (ix2 k (j 1))

/-- Row `p` of the node table's block at point `t` is row `10000 t + p` of the table. -/
theorem table_block_row (c : Dev nD) (t : Fin cfg0.N) (p : Fin 10000) (k : Fin 128) (r : Fin 100000)
    (hr : r.val = t.val * 10000 + p.val) :
    (iblk0 (F := Ideal) V c 0 t : Vec Ideal S10000x128 .f32) (ix2 p k) = (V c main_arg0 : A2 100000 128) (ix2 r k) := by
  obtain ⟨e0, e1, -⟩ := proj_blocks_at t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The matrix's one block is the matrix. -/
theorem matrix_block (c : Dev nD) (t : Fin cfg0.N) (k : Fin 128) (q q' : Fin 64) (hq : q'.val = q.val) :
    (iblk0 (F := Ideal) V c 1 t : Vec Ideal S128x64 .f32) (ix2 k q) = (V c main_v4 : A2 128 64) (ix2 k q') := by
  obtain ⟨-, -, e2, e3, -⟩ := proj_blocks_at t
  unfold iblk0
  rw [View.read_apply]
  show V c main_v4 _ = V c main_v4 _
  congr 1
  funext a
  apply Fin.ext
  match a with
  | ⟨0, _⟩ => show win0_1.index t (0 : Fin 2) * 128 + 1 * k.val = k.val; rw [e2]; omega
  | ⟨1, _⟩ => show win0_1.index t (1 : Fin 2) * 64 + 1 * q.val = q'.val; rw [e3, hq]; omega

/-- What point `t` writes back is block `t` of `tableTimes` of the two arrays the region found. -/
theorem proj_written (c : Dev nD) (t : Fin cfg0.N) :
    (dat0 (F := Ideal) V c).flushed 2 t
      = ((cfg0.win 2).blk t).view.read (Elt Ideal) (tableTimes (V c main_arg0) (V c main_v4)) := by
  show (cfg0.win 2).cut (grid0.coords t) ((dat0 V c).after 2 t) = _
  rw [after0_2]
  unfold out0_2
  rw [View.canon_unit_zero proj_zero_offsets]
  simp only [View.ld_unit_zero (S := S10000x128) proj_zero_offsets, View.ld_unit_zero (S := S128x64) proj_zero_offsets]
  obtain ⟨-, -, -, -, e4, e5⟩ := proj_blocks_at t
  funext j
  rw [View.read_apply]
  refine (proj_entry_at (iblk0 V c 0 t) (iblk0 V c 1 t) ((cfg0.win 2).xinj (grid0.coords t) j)).trans ?_
  refine Finset.sum_congr rfl fun k _ => ?_
  refine congrArg₂ (· * ·) (table_block_row V c t _ k _ ?_) (matrix_block V c t k _ _ ?_)
  · show win0_2.index t (0 : Fin 2) * 10000 + 1 * (j 0).val = t.val * 10000 + (j 0).val
    rw [e4]; omega
  · show win0_2.index t (1 : Fin 2) * 64 + 1 * (j 1).val = (j 1).val
    rw [e5]; omega

/-! ## The blocks tile the result -/

/-- An index of the result is in point `t`'s block iff each coordinate is in the block's range on its axis. -/
theorem proj_mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v5).slice (win0_2.rect t)).set ↔ _
  rw [View.set_slice_whole, Rect.mem_set_unit]
  exact Iff.rfl

/-- Row `r` of the result lies in block `r / 10000`, which its point writes back. -/
theorem proj_tiles (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e4, e5⟩ := proj_blocks_at t
  have ht : t.val = (i 0).val / 10000 := rfl
  refine ⟨t, flush0_2 t, ?_⟩
  rw [proj_mem_block]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 64 ≤ (i 1).val ∧ (i 1).val < win0_2.index t (1 : Fin 2) * 64 + 64
    rw [e5]; omega

/-- The array region 0 leaves: the projection of the node table it found, `ws` being the matrix it found, transposed. -/
theorem arr0 (c : Dev nD) (ws : A2 64 128)
    (hws : ∀ (k : Fin 128) (s : Fin 64), (V c main_v4 : A2 128 64) (ix2 k s) = ws (ix2 s k)) :
    ((dat0 (F := Ideal) V c).arrAt 2 cfg0.N : A2 100000 64) = fun j => proj (V c main_arg0) ws (j 0) (j 1) := by
  refine ((dat0 (F := Ideal) V c).arrAt_eq_of_cover 2 (tableTimes (V c main_arg0) (V c main_v4))
    (fun t _ => proj_written V c t) proj_tiles).trans ?_
  funext j
  unfold proj
  exact Finset.sum_congr rfl fun k _ => congrArg₂ (· * ·) rfl (hws k (j 1))

end Cert.KernelIdeal.Val

end
-- ==== Proof.KStage1.lean ====
/-
  The program up to the end of its first region.

  Before the region the host cuts the two rows of the edge words apart and transposes `W_send`; none of that touches the
  node table.  So the region finds the node table as launched and `W_send` transposed, and leaves the projection of the
  launched node table by the launched `W_send`.
-/
import proofs.«403891_j71880572666398_2_alg».proof.Proof.Gen.KernelIdeal.Frame
import proofs.«403891_j71880572666398_2_alg».proof.Proof.Spec
import proofs.«403891_j71880572666398_2_alg».proof.Proof.KArgs
import proofs.«403891_j71880572666398_2_alg».proof.Proof.KRegion0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- Region 0 finds the node table as launched: none of the host's operations before it writes that buffer. -/
theorem V1_arg0 (c : Dev nD) : (V1 (F := Ideal) m ρ c main_arg0 : A2 100000 128) = aX m c :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans rfl

/-- Region 0 finds, in the matrix buffer, the transpose of the launched `W_send`: the last of the host's operations
    before it writes exactly that. -/
theorem V1_v4 (c : Dev nD) :
    (V1 (F := Ideal) m ρ c main_v4 : A2 128 64)
      = transpose S128x64 [1, 0] (aWs m c) transposes_S64x128_S128x64_1_0 := by
  show StableHlo.after hostOps0 (W0 m ρ c) (Proc.devRef .tc main_v4) = _
  after_results

/-- The matrix region 0 finds, read at `(k, s)`: entry `(s, k)` of the launched `W_send`. -/
theorem V1_v4_apply (c : Dev nD) (k : Fin 128) (s : Fin 64) :
    (V1 (F := Ideal) m ρ c main_v4 : A2 128 64) (ix2 k s) = aWs m c (ix2 s k) := by
  rw [V1_v4]
  exact transpose_apply [1, 0] (aWs m c) transposes_S64x128_S128x64_1_0 (ix2 k s) (ix2 s k) (fun b => match b with
    | ⟨0, _⟩ => rfl
    | ⟨1, _⟩ => rfl)

/-- After region 0 the projected table holds `proj x W_send`. -/
theorem v5_eq (c : Dev nD) :
    (W2 (F := Ideal) m ρ c (Proc.devRef .tc main_v5) : A2 100000 64) = fun j => proj (aX m c) (aWs m c) (j 0) (j 1) := by
  have h := arr0 (V1 (F := Ideal) m ρ) c (aWs m c) (V1_v4_apply m ρ c)
  rw [V1_arg0] at h
  exact (W2_arr m ρ c 2).trans h

end Cert.KernelIdeal.Val

end
-- ==== Proof.KRegion1.lean ====
/-
  The second kernel region: the edges' stalk messages.

  The region walks the edges in 250 blocks of 6400.  For each edge of a block it computes the filter from the edge's
  radial features and envelope and the four small weight arrays, and multiplies it, component by component, by the row
  it is given for that edge.  Every entry of the result depends on its own edge's rows only, and the blocks tile the
  edges, so the array the region leaves is one function of the arrays it read.
-/
import proofs.«403891_j71880572666398_2_alg».proof.Proof.Gen.KernelIdeal.Frame
import proofs.«403891_j71880572666398_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Message

/-! ## The body's arithmetic at one entry -/

/-- A whole block is read and written at offsets zero. -/
theorem zero_offsets : (![0, 0] : Fin 2 → Nat) = fun _ => 0 :=
  funext fun a => match a with | ⟨0, _⟩ => rfl | ⟨1, _⟩ => rfl

/-- A one-column array `[a, 1]` broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ### The first product: radial features times the first filter weights

Output entry `(p, k)` contracts the left operand's row `p` with the right operand's column `k`. -/

theorem hidden_lhs_0 (i : S6400x128.Idx) (q : dot_S6400x32_S32x128_S6400x128_1_0_0_1_n_n.contr.Idx) :
    (dot_S6400x32_S32x128_S6400x128_1_0_0_1_n_n.lhsIdx i q 0).val = (i 0).val := by
  unfold DotDims.lhsIdx
  rw [dif_neg (show ¬(0 : Fin S6400x32.rank) ∈ dot_S6400x32_S32x128_S6400x128_1_0_0_1_n_n.lhsBatch by decide), dif_pos (show (0 : Fin S6400x32.rank) ∈ dot_S6400x32_S32x128_S6400x128_1_0_0_1_n_n.lhsNonContracting by decide)]
  rfl
theorem hidden_lhs_1 (i : S6400x128.Idx) (q : dot_S6400x32_S32x128_S6400x128_1_0_0_1_n_n.contr.Idx) :
    (dot_S6400x32_S32x128_S6400x128_1_0_0_1_n_n.lhsIdx i q 1).val = (q ⟨0, by decide⟩).val :=
  dot_S6400x32_S32x128_S6400x128_1_0_0_1_n_n.lhsIdx_val_of_single rfl i q
theorem hidden_rhs_0 (i : S6400x128.Idx) (q : dot_S6400x32_S32x128_S6400x128_1_0_0_1_n_n.contr.Idx) :
    (dot_S6400x32_S32x128_S6400x128_1_0_0_1_n_n.rhsIdx i q 0).val = (q ⟨0, by decide⟩).val :=
  dot_S6400x32_S32x128_S6400x128_1_0_0_1_n_n.rhsIdx_val_of_single rfl i q
theorem hidden_rhs_1 (i : S6400x128.Idx) (q : dot_S6400x32_S32x128_S6400x128_1_0_0_1_n_n.contr.Idx) :
    (dot_S6400x32_S32x128_S6400x128_1_0_0_1_n_n.rhsIdx i q 1).val = (i 1).val := by
  unfold DotDims.rhsIdx
  rw [dif_neg (show ¬(1 : Fin S32x128.rank) ∈ dot_S6400x32_S32x128_S6400x128_1_0_0_1_n_n.rhsBatch by decide), dif_pos (show (1 : Fin S32x128.rank) ∈ dot_S6400x32_S32x128_S6400x128_1_0_0_1_n_n.rhsNonContracting by decide)]
  rfl

/-- The first product at `(p, k)`: the sum over the 32 radial features. -/
theorem hidden_matmul_apply (a : FVec Ideal S6400x32 .bf16) (b : FVec Ideal S32x128 .bf16) (p : Fin 6400) (k : Fin 128) :
    matmul dot_S6400x32_S32x128_S6400x128_1_0_0_1_n_n none a b (constant (F := Ideal) S6400x128 .f32 0x00000000#32) (ix2 p k)
      = ∑ j : Fin 32, a (ix2 p j) * b (ix2 j k) := by
  refine (Ideal.matmul_constant_zero_apply dot_S6400x32_S32x128_S6400x128_1_0_0_1_n_n none a b (ix2 p k)).trans ?_
  rw [← Equiv.sum_comp (contrEquiv1 dot_S6400x32_S32x128_S6400x128_1_0_0_1_n_n 32 rfl rfl).symm]
  refine Finset.sum_congr rfl fun j _ => ?_
  have hj := contrEquiv1_symm_val dot_S6400x32_S32x128_S6400x128_1_0_0_1_n_n 32 rfl rfl j
  have el : dot_S6400x32_S32x128_S6400x128_1_0_0_1_n_n.lhsIdx (ix2 p k) ((contrEquiv1 dot_S6400x32_S32x128_S6400x128_1_0_0_1_n_n 32 rfl rfl).symm j) = ix2 p j := funext fun ax => Fin.ext (by
    match ax with
    | ⟨0, _⟩ => exact hidden_lhs_0 _ _
    | ⟨1, _⟩ => exact (hidden_lhs_1 _ _).trans hj)
  have er : dot_S6400x32_S32x128_S6400x128_1_0_0_1_n_n.rhsIdx (ix2 p k) ((contrEquiv1 dot_S6400x32_S32x128_S6400x128_1_0_0_1_n_n 32 rfl rfl).symm j) = ix2 j k := funext fun ax => Fin.ext (by
    match ax with
    | ⟨0, _⟩ => exact (hidden_rhs_0 _ _).trans hj
    | ⟨1, _⟩ => exact hidden_rhs_1 _ _)
  rw [el, er]

/-! ### The second product: activated hidden layer times the second filter weights -/

theorem filter_lhs_0 (i : S6400x64.Idx) (q : dot_S6400x128_S128x64_S6400x64_1_0_0_1_n_n.contr.Idx) :
    (dot_S6400x128_S128x64_S6400x64_1_0_0_1_n_n.lhsIdx i q 0).val = (i 0).val := by
  unfold DotDims.lhsIdx
  rw [dif_neg (show ¬(0 : Fin S6400x128.rank) ∈ dot_S6400x128_S128x64_S6400x64_1_0_0_1_n_n.lhsBatch by decide), dif_pos (show (0 : Fin S6400x128.rank) ∈ dot_S6400x128_S128x64_S6400x64_1_0_0_1_n_n.lhsNonContracting by decide)]
  rfl
theorem filter_lhs_1 (i : S6400x64.Idx) (q : dot_S6400x128_S128x64_S6400x64_1_0_0_1_n_n.contr.Idx) :
    (dot_S6400x128_S128x64_S6400x64_1_0_0_1_n_n.lhsIdx i q 1).val = (q ⟨0, by decide⟩).val :=
  dot_S6400x128_S128x64_S6400x64_1_0_0_1_n_n.lhsIdx_val_of_single rfl i q
theorem filter_rhs_0 (i : S6400x64.Idx) (q : dot_S6400x128_S128x64_S6400x64_1_0_0_1_n_n.contr.Idx) :
    (dot_S6400x128_S128x64_S6400x64_1_0_0_1_n_n.rhsIdx i q 0).val = (q ⟨0, by decide⟩).val :=
  dot_S6400x128_S128x64_S6400x64_1_0_0_1_n_n.rhsIdx_val_of_single rfl i q
theorem filter_rhs_1 (i : S6400x64.Idx) (q : dot_S6400x128_S128x64_S6400x64_1_0_0_1_n_n.contr.Idx) :
    (dot_S6400x128_S128x64_S6400x64_1_0_0_1_n_n.rhsIdx i q 1).val = (i 1).val := by
  unfold DotDims.rhsIdx
  rw [dif_neg (show ¬(1 : Fin S128x64.rank) ∈ dot_S6400x128_S128x64_S6400x64_1_0_0_1_n_n.rhsBatch by decide), dif_pos (show (1 : Fin S128x64.rank) ∈ dot_S6400x128_S128x64_S6400x64_1_0_0_1_n_n.rhsNonContracting by decide)]
  rfl

/-- The second product at `(p, s)`: the sum over the 128 hidden units. -/
theorem filter_matmul_apply (a : FVec Ideal S6400x128 .bf16) (b : FVec Ideal S128x64 .bf16) (p : Fin 6400) (s : Fin 64) :
    matmul dot_S6400x128_S128x64_S6400x64_1_0_0_1_n_n none a b (constant (F := Ideal) S6400x64 .f32 0x00000000#32) (ix2 p s)
      = ∑ k : Fin 128, a (ix2 p k) * b (ix2 k s) := by
  refine (Ideal.matmul_constant_zero_apply dot_S6400x128_S128x64_S6400x64_1_0_0_1_n_n none a b (ix2 p s)).trans ?_
  rw [← Equiv.sum_comp (contrEquiv1 dot_S6400x128_S128x64_S6400x64_1_0_0_1_n_n 128 rfl rfl).symm]
  refine Finset.sum_congr rfl fun k _ => ?_
  have hk := contrEquiv1_symm_val dot_S6400x128_S128x64_S6400x64_1_0_0_1_n_n 128 rfl rfl k
  have el : dot_S6400x128_S128x64_S6400x64_1_0_0_1_n_n.lhsIdx (ix2 p s) ((contrEquiv1 dot_S6400x128_S128x64_S6400x64_1_0_0_1_n_n 128 rfl rfl).symm k) = ix2 p k := funext fun ax => Fin.ext (by
    match ax with
    | ⟨0, _⟩ => exact filter_lhs_0 _ _
    | ⟨1, _⟩ => exact (filter_lhs_1 _ _).trans hk)
  have er : dot_S6400x128_S128x64_S6400x64_1_0_0_1_n_n.rhsIdx (ix2 p s) ((contrEquiv1 dot_S6400x128_S128x64_S6400x64_1_0_0_1_n_n 128 rfl rfl).symm k) = ix2 k s := funext fun ax => Fin.ext (by
    match ax with
    | ⟨0, _⟩ => exact (filter_rhs_0 _ _).trans hk
    | ⟨1, _⟩ => exact filter_rhs_1 _ _)
  rw [el, er]

/-- What the body stores at entry `(p, s)` of its block, from the blocks it loaded: the hidden layer of edge `p` from
    its radial features, activated, carried through the second weights, plus the bias, times the edge's envelope, times
    the row's component `s`. -/
theorem message_apply (x0 : Vec Ideal S6400x32 .f32) (w1 : Vec Ideal S32x128 .f32) (b1 : Vec Ideal S1x128 .f32)
    (w2 : Vec Ideal S128x64 .f32) (b2 : Vec Ideal S1x64 .f32) (e : Vec Ideal S6400x1 .f32) (r : Vec Ideal S6400x64 .f32)
    (p : Fin 6400) (s : Fin 64) :
    k1_pay1 (F := Ideal) x0 w1 b1 w2 b2 e r (ix2 p s)
      = ((∑ k : Fin 128, silu ((∑ j : Fin 32, x0 (ix2 p j) * w1 (ix2 j k)) + b1 (ix2 0 k)) * w2 (ix2 k s)) + b2 (ix2 0 s))
          * e (ix2 p 0) * r (ix2 p s) := by
  unfold k1_pay1
  simp only [shapeCast_self]
  refine (mulf_apply _ _ _).trans ?_
  refine congrArg₂ (· * ·) ?_ rfl
  refine (mulf_apply _ _ _).trans ?_
  refine congrArg₂ (· * ·) ?_ (broadcastTo_a1_ab_apply e broadcasts_S6400x1_S6400x64 p s)
  refine (addf_apply _ _ _).trans ?_
  refine congrArg₂ (· + ·) ?_ (broadcastTo_1b_ab_apply b2 broadcasts_S1x64_S6400x64 p s)
  refine (filter_matmul_apply _ _ p s).trans ?_
  refine Finset.sum_congr rfl fun k _ => ?_
  refine congrArg₂ (· * ·) ?_ rfl
  have hh : addf (matmul dot_S6400x32_S32x128_S6400x128_1_0_0_1_n_n none (truncf .bf16 x0 bitsLt_bf16_f32) (truncf .bf16 w1 bitsLt_bf16_f32) (constant (F := Ideal) S6400x128 .f32 0x00000000#32))
        (broadcastTo S6400x128 b1 broadcasts_S1x128_S6400x128) (ix2 p k)
      = (∑ j : Fin 32, x0 (ix2 p j) * w1 (ix2 j k)) + b1 (ix2 0 k) :=
    (addf_apply _ _ _).trans (congrArg₂ (· + ·) (hidden_matmul_apply _ _ p k) (broadcastTo_1b_ab_apply b1 broadcasts_S1x128_S6400x128 p k))
  unfold silu
  rw [← hh]
  rfl

/-! ## The blocks the region reads and writes, as parts of the arrays -/

/-- The block index of every window at every point, decided over the 250 points: the three edge-row inputs and the output
    are on block `t` of the rows, the four small weight arrays on their one block. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The grid's points are numbered below 250. -/
theorem point_lt (t : Fin cfg1.N) : t.val < 250 :=
  Nat.lt_of_lt_of_eq t.isLt (N_1 : cfg1.N = 250)

/-- Row `p` of the radial-feature block at point `t` is row `6400 t + p` of the array. -/
theorem rbf_block (c : Dev nD) (t : Fin cfg1.N) (p : Fin 6400) (j : Fin 32) (row : Fin 1600000)
    (hrow : row.val = t.val * 6400 + p.val) :
    iblk1 V c 0 t (ix2 p j) = (V c main_arg2 : A2 1600000 32) (ix2 row j) := by
  obtain ⟨e0, e1, -⟩ := block_indices t
  unfold iblk1
  rw [View.read_apply]
  show V c main_arg2 _ = V c main_arg2 _
  congr 1
  funext a; apply Fin.ext
  match a with
  | ⟨0, _⟩ => show win1_0.index t (0 : Fin 2) * 6400 + 1 * p.val = row.val; omega
  | ⟨1, _⟩ => show win1_0.index t (1 : Fin 2) * 32 + 1 * j.val = j.val; omega

/-- Entry `p` of the envelope block at point `t` is entry `6400 t + p` of the envelope column. -/
theorem env_block (c : Dev nD) (t : Fin cfg1.N) (p : Fin 6400) (z : Fin 1) (row : Fin 1600000)
    (hrow : row.val = t.val * 6400 + p.val) :
    iblk1 V c 1 t (ix2 p z) = (V c main_v11 : A2 1600000 1) (ix2 row z) := by
  obtain ⟨-, -, e0, e1, -⟩ := block_indices t
  unfold iblk1
  rw [View.read_apply]
  show V c main_v11 _ = V c main_v11 _
  congr 1
  funext a; apply Fin.ext
  match a with
  | ⟨0, _⟩ => show win1_1.index t (0 : Fin 2) * 6400 + 1 * p.val = row.val; omega
  | ⟨1, _⟩ => show win1_1.index t (1 : Fin 2) * 1 + 1 * z.val = z.val; omega

/-- Row `p` of the block of given rows at point `t` is row `6400 t + p` of the array of given rows. -/
theorem given_block (c : Dev nD) (t : Fin cfg1.N) (p : Fin 6400) (s : Fin 64) (row : Fin 1600000)
    (hrow : row.val = t.val * 6400 + p.val) :
    iblk1 V c 2 t (ix2 p s) = (V c main_v6 : A2 1600000 64) (ix2 row s) := by
  obtain ⟨-, -, -, -, e0, e1, -⟩ := block_indices t
  unfold iblk1
  rw [View.read_apply]
  show V c main_v6 _ = V c main_v6 _
  congr 1
  funext a; apply Fin.ext
  match a with
  | ⟨0, _⟩ => show win1_2.index t (0 : Fin 2) * 6400 + 1 * p.val = row.val; omega
  | ⟨1, _⟩ => show win1_2.index t (1 : Fin 2) * 64 + 1 * s.val = s.val; omega

/-- The block of the first filter weights is the whole array, at every point. -/
theorem w1_block (c : Dev nD) (t : Fin cfg1.N) (j : Fin 32) (k : Fin 128) :
    iblk1 V c 3 t (ix2 j k) = (V c main_v7 : A2 32 128) (ix2 j k) := by
  obtain ⟨-, -, -, -, -, -, e0, e1, -⟩ := block_indices t
  unfold iblk1
  rw [View.read_apply]
  show V c main_v7 _ = V c main_v7 _
  congr 1
  funext a; apply Fin.ext
  match a with
  | ⟨0, _⟩ => show win1_3.index t (0 : Fin 2) * 32 + 1 * j.val = j.val; omega
  | ⟨1, _⟩ => show win1_3.index t (1 : Fin 2) * 128 + 1 * k.val = k.val; omega

/-- The block of the first filter bias is the whole one-row array. -/
theorem b1_block (c : Dev nD) (t : Fin cfg1.N) (z : Fin 1) (k : Fin 128) :
    iblk1 V c 4 t (ix2 z k) = (V c main_v9 : A2 1 128) (ix2 z k) := by
  obtain ⟨-, -, -, -, -, -, -, -, e0, e1, -⟩ := block_indices t
  unfold iblk1
  rw [View.read_apply]
  show V c main_v9 _ = V c main_v9 _
  congr 1
  funext a; apply Fin.ext
  match a with
  | ⟨0, _⟩ => show win1_4.index t (0 : Fin 2) * 1 + 1 * z.val = z.val; omega
  | ⟨1, _⟩ => show win1_4.index t (1 : Fin 2) * 128 + 1 * k.val = k.val; omega

/-- The block of the second filter weights is the whole array. -/
theorem w2_block (c : Dev nD) (t : Fin cfg1.N) (k : Fin 128) (s : Fin 64) :
    iblk1 V c 5 t (ix2 k s) = (V c main_v8 : A2 128 64) (ix2 k s) := by
  obtain ⟨-, -, -, -, -, -, -, -, -, -, e0, e1, -⟩ := block_indices t
  unfold iblk1
  rw [View.read_apply]
  show V c main_v8 _ = V c main_v8 _
  congr 1
  funext a; apply Fin.ext
  match a with
  | ⟨0, _⟩ => show win1_5.index t (0 : Fin 2) * 128 + 1 * k.val = k.val; omega
  | ⟨1, _⟩ => show win1_5.index t (1 : Fin 2) * 64 + 1 * s.val = s.val; omega

/-- The block of the second filter bias is the whole one-row array. -/
theorem b2_block (c : Dev nD) (t : Fin cfg1.N) (z : Fin 1) (s : Fin 64) :
    iblk1 V c 6 t (ix2 z s) = (V c main_v10 : A2 1 64) (ix2 z s) := by
  obtain ⟨-, -, -, -, -, -, -, -, -, -, -, -, e0, e1, -⟩ := block_indices t
  unfold iblk1
  rw [View.read_apply]
  show V c main_v10 _ = V c main_v10 _
  congr 1
  funext a; apply Fin.ext
  match a with
  | ⟨0, _⟩ => show win1_6.index t (0 : Fin 2) * 1 + 1 * z.val = z.val; omega
  | ⟨1, _⟩ => show win1_6.index t (1 : Fin 2) * 64 + 1 * s.val = s.val; omega

/-- Entry `(p, s)` of the output block at point `t` sits at row `6400 t + p`, column `s` of the output array. -/
theorem out_emb (t : Fin cfg1.N) (p : Fin 6400) (s : Fin 64) (row : Fin 1600000)
    (hrow : row.val = t.val * 6400 + p.val) :
    ((cfg1.win 7).blk t).view.emb (ix2 p s) = (ix2 row s : S1600000x64.Idx) := by
  obtain ⟨-, -, -, -, -, -, -, -, -, -, -, -, -, -, e0, e1⟩ := block_indices t
  funext a; apply Fin.ext
  match a with
  | ⟨0, _⟩ => show win1_7.index t (0 : Fin 2) * 6400 + 1 * p.val = row.val; omega
  | ⟨1, _⟩ => show win1_7.index t (1 : Fin 2) * 64 + 1 * s.val = s.val; omega

/-! ## The messages as one array -/

/-- One entry of the messages, from the arrays as the region finds them: the filter of edge `r` (hidden layer from the
    radial features, activated, through the second weights, plus its bias, times the envelope) times the given row. -/
def messageAt (rbf : A2 1600000 32) (w1 : A2 32 128) (b1 : A2 1 128) (w2 : A2 128 64) (b2 : A2 1 64) (ev : A2 1600000 1)
    (x : A2 1600000 64) (r : Fin 1600000) (s : Fin 64) : EReal :=
  ((∑ k : Fin 128, silu ((∑ j : Fin 32, rbf (ix2 r j) * w1 (ix2 j k)) + b1 (ix2 0 k)) * w2 (ix2 k s)) + b2 (ix2 0 s))
    * ev (ix2 r 0) * x (ix2 r s)

/-- All of them as one array. -/
def messages (rbf : A2 1600000 32) (w1 : A2 32 128) (b1 : A2 1 128) (w2 : A2 128 64) (b2 : A2 1 64) (ev : A2 1600000 1)
    (x : A2 1600000 64) : A2 1600000 64 :=
  fun i => messageAt rbf w1 b1 w2 b2 ev x (i 0) (i 1)

/-- The body's entry `(p, s)` is the message entry `(row, s)` as soon as the loaded blocks read the arrays where the
    entry looks: the edge-row blocks at row `row`, the weight blocks everywhere. -/
theorem message_of_reads (x0 : Vec Ideal S6400x32 .f32) (w1b : Vec Ideal S32x128 .f32) (b1b : Vec Ideal S1x128 .f32)
    (w2b : Vec Ideal S128x64 .f32) (b2b : Vec Ideal S1x64 .f32) (eb : Vec Ideal S6400x1 .f32) (rb : Vec Ideal S6400x64 .f32)
    (rbf : A2 1600000 32) (w1 : A2 32 128) (b1 : A2 1 128) (w2 : A2 128 64) (b2 : A2 1 64) (ev : A2 1600000 1)
    (x : A2 1600000 64) (p : Fin 6400) (s : Fin 64) (row : Fin 1600000)
    (h0 : ∀ j : Fin 32, x0 (ix2 p j) = rbf (ix2 row j))
    (h3 : ∀ (j : Fin 32) (k : Fin 128), w1b (ix2 j k) = w1 (ix2 j k))
    (h4 : ∀ k : Fin 128, b1b (ix2 0 k) = b1 (ix2 0 k))
    (h5 : ∀ k : Fin 128, w2b (ix2 k s) = w2 (ix2 k s))
    (h6 : b2b (ix2 0 s) = b2 (ix2 0 s))
    (h1 : eb (ix2 p 0) = ev (ix2 row 0))
    (h2 : rb (ix2 p s) = x (ix2 row s)) :
    k1_pay1 (F := Ideal) x0 w1b b1b w2b b2b eb rb (ix2 p s) = messageAt rbf w1 b1 w2 b2 ev x row s := by
  refine (message_apply x0 w1b b1b w2b b2b eb rb p s).trans ?_
  unfold messageAt
  simp only [h0, h3, h4, h5, h6, h1, h2]

/-- The output block's entry `(p, s)` at point `t` is the message entry the block's place in the array names. -/
theorem flushed_at (c : Dev nD) (t : Fin cfg1.N) (p : Fin 6400) (s : Fin 64) :
    k1_pay1 (F := Ideal) (iblk1 V c 0 t) (iblk1 V c 3 t) (iblk1 V c 4 t) (iblk1 V c 5 t) (iblk1 V c 6 t) (iblk1 V c 1 t)
        (iblk1 V c 2 t) (ix2 p s)
      = messages (V c main_arg2) (V c main_v7) (V c main_v9) (V c main_v8) (V c main_v10) (V c main_v11) (V c main_v6)
          (((cfg1.win 7).blk t).view.emb (ix2 p s)) := by
  have ht := point_lt t
  have hp : p.val < 6400 := p.isLt
  have hrow : t.val * 6400 + p.val < 1600000 := by omega
  rw [out_emb t p s ⟨t.val * 6400 + p.val, hrow⟩ rfl]
  exact message_of_reads (iblk1 V c 0 t) (iblk1 V c 3 t) (iblk1 V c 4 t) (iblk1 V c 5 t) (iblk1 V c 6 t) (iblk1 V c 1 t)
    (iblk1 V c 2 t) (V c main_arg2) (V c main_v7) (V c main_v9) (V c main_v8) (V c main_v10) (V c main_v11) (V c main_v6)
    p s ⟨t.val * 6400 + p.val, hrow⟩
    (fun j => rbf_block V c t p j ⟨t.val * 6400 + p.val, hrow⟩ rfl)
    (fun j k => w1_block V c t j k)
    (fun k => b1_block V c t 0 k)
    (fun k => w2_block V c t k s)
    (b2_block V c t 0 s)
    (env_block V c t p 0 ⟨t.val * 6400 + p.val, hrow⟩ rfl)
    (given_block V c t p s ⟨t.val * 6400 + p.val, hrow⟩ rfl)

/-- What point `t` writes back is block `t` of the messages. -/
theorem flushed_eq (c : Dev nD) (t : Fin cfg1.N) :
    (dat1 V c).flushed 7 t = ((cfg1.win 7).blk t).view.read (Elt Ideal)
      (messages (V c main_arg2) (V c main_v7) (V c main_v9) (V c main_v8) (V c main_v10) (V c main_v11) (V c main_v6)) := by
  show (cfg1.win 7).cut (grid1.coords t) ((dat1 V c).after 7 t) = _
  rw [after1_7]
  unfold out1_7
  rw [View.canon_unit_zero zero_offsets]
  simp only [View.ld_unit_zero (S := S6400x32) zero_offsets, View.ld_unit_zero (S := S32x128) zero_offsets,
    View.ld_unit_zero (S := S1x128) zero_offsets, View.ld_unit_zero (S := S128x64) zero_offsets,
    View.ld_unit_zero (S := S1x64) zero_offsets, View.ld_unit_zero (S := S6400x1) zero_offsets,
    View.ld_unit_zero (S := S6400x64) zero_offsets]
  funext y
  obtain ⟨p, s, rfl⟩ : ∃ (p : Fin 6400) (s : Fin 64), y = ix2 p s := ⟨y 0, y 1, eq_ix2 y⟩
  exact flushed_at V c t p s

/-! ## The blocks tile the edges -/

/-- An entry of the output array is in point `t`'s block iff each coordinate is in the block's range on its axis. -/
theorem mem_block (t : Fin cfg1.N) (i : S1600000x64.Idx) :
    i ∈ ((cfg1.win 7).blk t).view.set ↔ ∀ a : Fin 2, win1_7.index t a * S6400x64.size a ≤ (i a).val
      ∧ (i a).val < win1_7.index t a * S6400x64.size a + S6400x64.size a := by
  show i ∈ ((View.whole main_v12).slice (win1_7.rect t)).set ↔ _
  rw [View.set_slice_whole, Rect.mem_set_unit]
  exact Iff.rfl

/-- Row `r` of the output lies in the block of point `r / 6400`, and every point writes its block back. -/
theorem covered (i : S1600000x64.Idx) :
    ∃ t : Fin cfg1.N, (cfg1.win 7).flush t = true ∧ i ∈ ((cfg1.win 7).blk t).view.set := by
  have hi0 : (i 0).val < 1600000 := (i 0).isLt
  have hi1 : (i 1).val < 64 := (i 1).isLt
  have hq : (i 0).val / 6400 < cfg1.N := by rw [show cfg1.N = 250 from N_1]; omega
  refine ⟨⟨(i 0).val / 6400, hq⟩, flush1_7 _, ?_⟩
  rw [mem_block]
  obtain ⟨-, -, -, -, -, -, -, -, -, -, -, -, -, -, e0, e1⟩ := block_indices ⟨(i 0).val / 6400, hq⟩
  intro a
  match a with
  | ⟨0, _⟩ =>
    show win1_7.index ⟨(i 0).val / 6400, hq⟩ (0 : Fin 2) * 6400 ≤ (i 0).val
      ∧ (i 0).val < win1_7.index ⟨(i 0).val / 6400, hq⟩ (0 : Fin 2) * 6400 + 6400
    rw [e0]
    show (i 0).val / 6400 * 6400 ≤ (i 0).val ∧ (i 0).val < (i 0).val / 6400 * 6400 + 6400
    omega
  | ⟨1, _⟩ =>
    show win1_7.index ⟨(i 0).val / 6400, hq⟩ (1 : Fin 2) * 64 ≤ (i 1).val
      ∧ (i 1).val < win1_7.index ⟨(i 0).val / 6400, hq⟩ (1 : Fin 2) * 64 + 64
    rw [e1]
    omega

/-- So the output array ends holding the messages. -/
theorem final_messages (c : Dev nD) :
    ((dat1 (F := Ideal) V c).arrAt 7 cfg1.N : A2 1600000 64)
      = messages (V c main_arg2) (V c main_v7) (V c main_v9) (V c main_v8) (V c main_v10) (V c main_v11) (V c main_v6) :=
  (dat1 V c).arrAt_eq_of_cover 7
    (messages (V c main_arg2) (V c main_v7) (V c main_v9) (V c main_v8) (V c main_v10) (V c main_v11) (V c main_v6))
    (fun t _ => flushed_eq V c t) covered

end Message

open Message
/-- The array region 1 leaves: each edge's filter times the row it found for that edge. The small arrays it found are
    the transposes and one-row or one-column forms of `env`, `f1w`, `f1b`, `f2w`, `f2b`. -/
theorem arr1 (c : Dev nD) (env : A1 1600000) (f1w : A2 128 32) (f1b : A1 128) (f2w : A2 64 128) (f2b : A1 64)
    (henv : ∀ e : Fin 1600000, (V c main_v11 : A2 1600000 1) (ix2 e 0) = env (ix1 e))
    (hf1w : ∀ (i : Fin 32) (k : Fin 128), (V c main_v7 : A2 32 128) (ix2 i k) = f1w (ix2 k i))
    (hf1b : ∀ k : Fin 128, (V c main_v9 : A2 1 128) (ix2 0 k) = f1b (ix1 k))
    (hf2w : ∀ (k : Fin 128) (s : Fin 64), (V c main_v8 : A2 128 64) (ix2 k s) = f2w (ix2 s k))
    (hf2b : ∀ s : Fin 64, (V c main_v10 : A2 1 64) (ix2 0 s) = f2b (ix1 s)) :
    ((dat1 (F := Ideal) V c).arrAt 7 cfg1.N : A2 1600000 64)
      = fun j => phi (V c main_arg2) env f1w f1b f2w f2b (j 0) (j 1) * (V c main_v6 : A2 1600000 64) j := by
  rw [final_messages V c]
  funext j
  obtain ⟨r, s, rfl⟩ : ∃ (r : Fin 1600000) (s : Fin 64), j = ix2 r s := ⟨j 0, j 1, eq_ix2 j⟩
  show messageAt (V c main_arg2) (V c main_v7) (V c main_v9) (V c main_v8) (V c main_v10) (V c main_v11) (V c main_v6) r s
    = phi (V c main_arg2) env f1w f1b f2w f2b r s * V c main_v6 (ix2 r s)
  unfold messageAt phi hid
  simp only [hf1w, hf1b, hf2w, hf2b, henv]

end Cert.KernelIdeal.Val

end
-- ==== Proof.LibRowGather.lean ====
/-
  A gather of whole rows, read at an index.

  The operand is a matrix of `N` rows and `C` columns and the start indices one word per result row.  Result row `e`
  is the operand's row at that word, read signed and clamped into `[0, N - 1]`; entry `(e, c)` of the result is entry
  `c` of that row.
-/
import Idealize.ShloMosaic.PureOps
import Idealize.ShloMosaic.Lib.ValueIdx

noncomputable section

namespace Cert.RowGather

open Idealize.ShloMosaic Idealize.ShloMosaic.ValueIdx

/-- The dimension numbers of a gather of rows: the row axis is collapsed and indexed by the one word of each start
    index, the column axis is the offset axis, and a slice is one whole row. -/
abbrev dims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER READ AT `(e, c)`: column `c` of the operand's row at the word `idx (e, 0)`, read signed and clamped into
    `[0, N - 1]`. -/
theorem gather_apply {α : Type} {w : Nat} (N E C : Nat) (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (dims N E C wf) x idx (ix2 e c) = x (ix2 ⟨min (idx (ix2 e 0)).toInt.toNat (N - 1), by omega⟩ c) := by
  unfold Host.gather
  congr 1
  funext a
  refine Fin.ext ?_
  match a with
  | ⟨0, _⟩ =>
    show (dims N E C wf).start (ix2 e c) idx 0 + (dims N E C wf).batchCoord (ix2 e c) 0
      + (dims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N E C wf).startIndexMap from List.mem_singleton.mpr rfl)]
    have hsi : (dims N E C wf).siIdx (ix2 e c) ⟨List.idxOf (0 : Fin 2) (dims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (dims N E C wf).start (ix2 e c) idx 1 + (dims N E C wf).batchCoord (ix2 e c) 1
      + (dims N E C wf).offCoord (ix2 e c) 1 = c.val
    rw [GatherDims.batchCoord_eq_zero _ _ _ List.not_mem_nil]
    have hs : (dims N E C wf).start (ix2 e c) idx 1 = 0 := by
      unfold GatherDims.start
      rw [dif_neg (show (1 : Fin 2) ∉ ([0] : List (Fin 2)) from by decide)]
    rw [hs]
    simp only [Nat.add_zero, Nat.zero_add]
    unfold GatherDims.offCoord
    rw [dif_pos (show (1 : Fin 2) ∈ (dims N E C wf).sKept from
      (GatherDims.mem_sKept _ _).mpr ⟨(show (1 : Fin 2) ∉ ([0] : List (Fin 2)) from by decide), List.not_mem_nil⟩)]
    rfl

end Cert.RowGather

end
-- ==== Proof.LibTakeFill.lean ====
/-
  Index arithmetic behind a gather that replaces out-of-range rows by a fill value.

  A row index is a 32-bit word `s`.  A negative index counts from the end, so the word is first wrapped (a negative `s` becomes `s + n`), and the
  wrapped word is then tested against the interval `[0, n - 1]`; a row whose wrapped index fails the test is
  replaced by the fill value.  For `-n ≤ s < n` the wrapped index always lies in `[0, n - 1]`, so both tests
  answer one everywhere, their conjunction reduced along a row is one, and the select under that mask returns
  the gathered rows unchanged.
-/
import Idealize.ShloMosaic.PureOps
import Idealize.ShloMosaic.PureOps.Reduce
import Idealize.ShloMosaic.Lib.Affine
import Idealize.ShloMosaic.Lib.ValueIdx

namespace Cert.TakeFill

open Idealize.ShloMosaic

/-- The sum of a word in `[-n, 0)` and the word `n` does not wrap: read signed it is the sum of the two readings. -/
theorem toInt_add_of_neg (n : Int) (hn0 : 0 < n) (hn1 : n < 2 ^ 30) (N s : BitVec 32) (hN : N.toInt = n)
    (hlo : -n ≤ s.toInt) (hneg : s.toInt < 0) : (s + N).toInt = s.toInt + n := by
  rw [BitVec.toInt_add, hN, Int.bmod_eq_of_le_mul_two (by omega) (by omega)]

/-- The wrapped index of a word in `[-n, n)` lies in `[0, n - 1]`, signed, for `0 < n < 2 ^ 30`: a negative word
    moves up by `n` into `[0, n)`, a nonnegative one stays. -/
theorem wrapped_in_range (n : Int) (hn0 : 0 < n) (hn1 : n < 2 ^ 30) (N negN Nm1 : BitVec 32)
    (hN : N.toInt = n) (hnegN : negN.toInt = -n) (hNm1 : Nm1.toInt = n - 1) (s : BitVec 32)
    (hlo : IntOp.cmpi .sge s negN = 1#1) (hhi : IntOp.cmpi .slt s N = 1#1) :
    IntOp.cmpi .sge (Scalar.select (IntOp.cmpi .slt s 0#32) (IntOp.addi s N) s) 0#32 = 1#1
    ∧ IntOp.cmpi .sle (Scalar.select (IntOp.cmpi .slt s 0#32) (IntOp.addi s N) s) Nm1 = 1#1 := by
  rw [IntOp.cmpi_sge, hnegN] at hlo
  rw [IntOp.cmpi_slt, hN] at hhi
  have h0 : (0#32 : BitVec 32).toInt = 0 := by decide
  by_cases hs : s.toInt < 0
  · have hc : IntOp.cmpi .slt s 0#32 = 1#1 := IntOp.cmpi_slt.2 (by rw [h0]; exact hs)
    have hadd : (IntOp.addi s N).toInt = s.toInt + n := toInt_add_of_neg n hn0 hn1 N s hN hlo hs
    rw [hc, ValueIdx.select_one, IntOp.cmpi_sge, IntOp.cmpi_sle, hadd, h0, hNm1]
    constructor <;> omega
  · have hc : ¬ IntOp.cmpi .slt s 0#32 = 1#1 := fun h => hs (by have := IntOp.cmpi_slt.1 h; rwa [h0] at this)
    rw [ValueIdx.eq_zero_of_ne_one hc, ValueIdx.select_zero, IntOp.cmpi_sge, IntOp.cmpi_sle, h0, hNm1]
    constructor <;> omega

/-- A left fold of `and` from one over words that are all one is one. -/
theorem foldl_andi_ones {ι : Type} (f : ι → BitVec 1) (hf : ∀ i, f i = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_ones f hf l

/-- A reduction by `and`, from one, of an array of ones is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

/-- A select whose mask is the conjunction of two tests that answer one everywhere, reduced by `and` and then
    broadcast, returns its first operand: the fill value is never chosen. -/
theorem select_of_tests {sc sr sm u : Shape} {axes : List (Fin sc.rank)} {dims : Fin sr.rank → Fin sm.rank}
    (hb : sr.BroadcastsInDim sm dims) (hr : sc.ReducesTo axes sr) (hu : 0 < u.numel)
    (lo hi : IVec sc 1) (init : u.Idx → BitVec 1) {α : Type} (g fill : sm.Idx → α)
    (hlo : ∀ i, lo i = 1#1) (hhi : ∀ i, hi i = 1#1) (hinit : ∀ k, init k = 1#1) :
    select (broadcastInDim sm dims hb (Host.reduce IntOp.andi (andi lo hi) init hr hu)) g fill = g := by
  funext j
  show Scalar.select (Host.reduce IntOp.andi (andi lo hi) init hr hu _) (g j) (fill j) = g j
  rw [reduce_andi_ones _ _ hr hu (fun i => by
    show IntOp.andi (lo i) (hi i) = 1#1
    rw [hlo, hhi]; decide) hinit]
  exact if_pos rfl

end Cert.TakeFill
-- ==== Proof.KStage2.lean ====
/-
  The program from the end of its first region to the end of its second.

  The host gathers, for every edge, the projected row of the edge's source node: the source word is wrapped (a negative
  word counts from the end), rows whose wrapped word falls outside the table are replaced by a fill value, and the rest
  are read from the table.  When every source word lies in `[-100000, 100000)` no row is replaced, so the gathered array
  is the projected table at the wrapped words.  The host also transposes and reshapes the filter's small arrays.  The
  second region then leaves every edge's stalk message.
-/
import proofs.«403891_j71880572666398_2_alg».proof.Proof.Gen.KernelIdeal.Frame
import proofs.«403891_j71880572666398_2_alg».proof.Proof.Spec
import proofs.«403891_j71880572666398_2_alg».proof.Proof.KArgs
import proofs.«403891_j71880572666398_2_alg».proof.Proof.KStage1
import proofs.«403891_j71880572666398_2_alg».proof.Proof.KRegion1
import proofs.«403891_j71880572666398_2_alg».proof.Proof.LibRowGather
import proofs.«403891_j71880572666398_2_alg».proof.Proof.LibTakeFill
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- A buffer none of a stretch's operations writes holds after the stretch what it held before. -/
local macro "unwritten" : tactic => `(tactic| (
  refine StableHlo.after_of_forall_not_mem _ _ (List.forall_iff_forall_mem.mp ?_)
  simp only [hostOps0, hostOps1, hostOps1_1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- An operation stated at its operands' value types is the operation at the buffers' own types when the two agree. -/
private theorem tref_binary_eq {Val : EltTy → Type} (a b y : Ref sig .tc) (ha : a.space ≠ .host) (ha' : a.isScoped = false)
    (hb : b.space ≠ .host) (hb' : b.isScoped = false) (hy : y.space ≠ .host) (hy' : y.isScoped = false)
    (f : a.ty.Contents Val → b.ty.Contents Val → y.ty.Contents Val) :
    (StableHlo.TRef.binary (τ := τ) (StableHlo.TRef.of a rfl ha ha') (StableHlo.TRef.of b rfl hb hb') (StableHlo.TRef.of y rfl hy hy') f : HloOp τ sig Val)
      = StableHlo.binary a b y f ⟨ha, ha'⟩ ⟨hb, hb'⟩ ⟨hy, hy'⟩ := rfl

/-! ## The arguments as region 0 left them

Region 0 reads the node table and writes the projected table; of the edge words, the radial features, the envelope and
the filter's weights neither it nor the host's first operations write anything, so those still hold what was launched. -/

private theorem W2_arg2 (c : Dev nD) : (W2 (F := Ideal) m ρ c (Proc.devRef .tc main_arg2) : A2 1600000 32) = aRbf m c :=
  (W2_of_ne m ρ c main_arg2 (by decide)).trans
    ((by unwritten : W1 (F := Ideal) m ρ c (Proc.devRef .tc main_arg2) = W0 m ρ c (Proc.devRef .tc main_arg2)).trans rfl)
private theorem W2_arg3 (c : Dev nD) : (W2 (F := Ideal) m ρ c (Proc.devRef .tc main_arg3) : A1 1600000) = aEnv m c :=
  (W2_of_ne m ρ c main_arg3 (by decide)).trans
    ((by unwritten : W1 (F := Ideal) m ρ c (Proc.devRef .tc main_arg3) = W0 m ρ c (Proc.devRef .tc main_arg3)).trans rfl)
private theorem W2_arg6 (c : Dev nD) : (W2 (F := Ideal) m ρ c (Proc.devRef .tc main_arg6) : A2 128 32) = aF1w m c :=
  (W2_of_ne m ρ c main_arg6 (by decide)).trans
    ((by unwritten : W1 (F := Ideal) m ρ c (Proc.devRef .tc main_arg6) = W0 m ρ c (Proc.devRef .tc main_arg6)).trans rfl)
private theorem W2_arg7 (c : Dev nD) : (W2 (F := Ideal) m ρ c (Proc.devRef .tc main_arg7) : A1 128) = aF1b m c :=
  (W2_of_ne m ρ c main_arg7 (by decide)).trans
    ((by unwritten : W1 (F := Ideal) m ρ c (Proc.devRef .tc main_arg7) = W0 m ρ c (Proc.devRef .tc main_arg7)).trans rfl)
private theorem W2_arg8 (c : Dev nD) : (W2 (F := Ideal) m ρ c (Proc.devRef .tc main_arg8) : A2 64 128) = aF2w m c :=
  (W2_of_ne m ρ c main_arg8 (by decide)).trans
    ((by unwritten : W1 (F := Ideal) m ρ c (Proc.devRef .tc main_arg8) = W0 m ρ c (Proc.devRef .tc main_arg8)).trans rfl)
private theorem W2_arg9 (c : Dev nD) : (W2 (F := Ideal) m ρ c (Proc.devRef .tc main_arg9) : A1 64) = aF2b m c :=
  (W2_of_ne m ρ c main_arg9 (by decide)).trans
    ((by unwritten : W1 (F := Ideal) m ρ c (Proc.devRef .tc main_arg9) = W0 m ρ c (Proc.devRef .tc main_arg9)).trans rfl)

/-! ## The small arrays region 1 finds -/

/-- Region 1 finds the radial features as launched. -/
private theorem V4_arg2 (c : Dev nD) : (V4 (F := Ideal) m ρ c main_arg2 : A2 1600000 32) = aRbf m c :=
  calc W4 (F := Ideal) m ρ c (Proc.devRef .tc main_arg2)
    _ = W3 m ρ c (Proc.devRef .tc main_arg2) := by unwritten
    _ = W2 m ρ c (Proc.devRef .tc main_arg2) := by unwritten
    _ = aRbf m c := W2_arg2 m ρ c

/-- The envelope as a column: entry `(e, 0)` is the envelope of edge `e`. -/
private theorem V4_v11_apply (c : Dev nD) (e : Fin 1600000) :
    (V4 (F := Ideal) m ρ c main_v11 : A2 1600000 1) (ix2 e 0) = aEnv m c (ix1 e) := by
  show StableHlo.after hostOps1_1 (W3 m ρ c) (Proc.devRef .tc main_v11) (ix2 e 0) = _
  after_results
  rw [W2_arg3]
  exact shapeCast_apply (aEnv m c) shapeCasts_S1600000_S1600000x1 (ix2 e 0) (ix1 e)
    (by rewrite [Shape.rowMajor_val_two, Shape.rowMajor_val_one]; show e.val = e.val * 1 + 0; omega)

/-- The first filter weights transposed: entry `(i, k)` is entry `(k, i)` of the launched array. -/
private theorem V4_v7_apply (c : Dev nD) (i : Fin 32) (k : Fin 128) :
    (V4 (F := Ideal) m ρ c main_v7 : A2 32 128) (ix2 i k) = aF1w m c (ix2 k i) := by
  show StableHlo.after hostOps1_1 (W3 m ρ c) (Proc.devRef .tc main_v7) (ix2 i k) = _
  after_results
  rw [W2_arg6]
  exact transpose_apply [1, 0] (aF1w m c) transposes_S128x32_S32x128_1_0 (ix2 i k) (ix2 k i) (fun b => match b with
    | ⟨0, _⟩ => rfl
    | ⟨1, _⟩ => rfl)

/-- The first filter bias as one row. -/
private theorem V4_v9_apply (c : Dev nD) (k : Fin 128) :
    (V4 (F := Ideal) m ρ c main_v9 : A2 1 128) (ix2 0 k) = aF1b m c (ix1 k) := by
  show StableHlo.after hostOps1_1 (W3 m ρ c) (Proc.devRef .tc main_v9) (ix2 0 k) = _
  after_results
  rw [W2_arg7]
  exact shapeCast_apply (aF1b m c) shapeCasts_S128_S1x128 (ix2 0 k) (ix1 k)
    (by rewrite [Shape.rowMajor_val_two, Shape.rowMajor_val_one]; show k.val = 0 * 128 + k.val; omega)

/-- The second filter weights transposed: entry `(k, s)` is entry `(s, k)` of the launched array. -/
private theorem V4_v8_apply (c : Dev nD) (k : Fin 128) (s : Fin 64) :
    (V4 (F := Ideal) m ρ c main_v8 : A2 128 64) (ix2 k s) = aF2w m c (ix2 s k) := by
  show StableHlo.after hostOps1_1 (W3 m ρ c) (Proc.devRef .tc main_v8) (ix2 k s) = _
  after_results
  rw [W2_arg8]
  exact transpose_apply [1, 0] (aF2w m c) transposes_S64x128_S128x64_1_0 (ix2 k s) (ix2 s k) (fun b => match b with
    | ⟨0, _⟩ => rfl
    | ⟨1, _⟩ => rfl)

/-- The second filter bias as one row. -/
private theorem V4_v10_apply (c : Dev nD) (s : Fin 64) :
    (V4 (F := Ideal) m ρ c main_v10 : A2 1 64) (ix2 0 s) = aF2b m c (ix1 s) := by
  show StableHlo.after hostOps1_1 (W3 m ρ c) (Proc.devRef .tc main_v10) (ix2 0 s) = _
  after_results
  rw [W2_arg9]
  exact shapeCast_apply (aF2b m c) shapeCasts_S64_S1x64 (ix2 0 s) (ix1 s)
    (by rewrite [Shape.rowMajor_val_two, Shape.rowMajor_val_one]; show s.val = 0 * 64 + s.val; omega)

/-! ## The gathered rows

The host wraps every source word, tests the wrapped words against `[0, 99999]`, gathers the projected table's rows
at the wrapped words, and replaces by a fill value the rows whose word failed the test. -/

/-- The gather's start indices: every source word wrapped, as a column. -/
private def startIdx (v1 : (⟨S1600000, .i32⟩ : BufTy).Contents (Elt Ideal)) : (⟨S1600000x1, .i32⟩ : BufTy).Contents (Elt Ideal) :=
  broadcastInDim S1600000x1 ![0] bcast_S1600000_S1600000x1_0
    (select (cmpi .slt v1 (broadcastInDim S1600000 ![] bcast_S_S1600000 (constantI S_ 32 0#32)))
      (addi v1 (broadcastInDim S1600000 ![] bcast_S_S1600000 (constantI S_ 32 100000#32))) v1)

/-- The rows of `x` at the wrapped source words, a row whose wrapped word is outside `[0, 99999]` replaced by the fill
    value. -/
private def takeFill (x : (⟨S100000x64, .f32⟩ : BufTy).Contents (Elt Ideal)) (v1 : (⟨S1600000, .i32⟩ : BufTy).Contents (Elt Ideal)) :
    (⟨S1600000x64, .f32⟩ : BufTy).Contents (Elt Ideal) :=
  select
    (broadcastInDim S1600000x64 ![0] bcast_S1600000_S1600000x64_0
      (Host.reduce IntOp.andi
        (andi (cmpi .sge (startIdx v1) (broadcastInDim S1600000x1 ![] bcast_S_S1600000x1 (constantI S_ 32 0#32)))
          (cmpi .sle (startIdx v1) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_))
    (Host.gather gather_S100000x64_S1600000x1_S1600000x64_1_0_n_n_0_1_164 x (startIdx v1))
    (broadcastInDim S1600000x64 ![] bcast_S_S1600000x64 (constant (F := Ideal) S_ .f32 0x7FC00000#32))

/-- The 23 operations of the take, each written at its buffers' own types. -/
private abbrev takeOps : List (HloOp τ sig (Elt Ideal)) :=
  [ StableHlo.nullary main_call0_c (constantI S_ 32 0#32),
    StableHlo.unary main_call0_c main_call0_v0 (broadcastInDim S1600000 ![] bcast_S_S1600000),
    StableHlo.binary main_v1 main_call0_v0 main_call0_v1 (cmpi .slt),
    StableHlo.nullary main_call0_c_0 (constantI S_ 32 100000#32),
    StableHlo.unary main_call0_c_0 main_call0_v2 (broadcastInDim S1600000 ![] bcast_S_S1600000),
    StableHlo.binary main_v1 main_call0_v2 main_call0_v3 addi,
    StableHlo.ternary main_call0_v1 main_call0_v3 main_v1 main_call0_v4 select,
    StableHlo.unary main_call0_v4 main_call0_v5 (broadcastInDim S1600000x1 ![0] bcast_S1600000_S1600000x1_0),
    StableHlo.nullary main_call0_c_1 (constantI S1 32 99999#32),
    StableHlo.nullary main_call0_c_2 (constantI S_ 32 0#32),
    StableHlo.unary main_call0_c_2 main_call0_v6 (broadcastInDim S1600000x1 ![] bcast_S_S1600000x1),
    StableHlo.binary main_call0_v5 main_call0_v6 main_call0_v7 (cmpi .sge),
    StableHlo.unary main_call0_c_1 main_call0_v8 (broadcastInDim S1x1 ![1] bcast_S1_S1x1_1),
    StableHlo.unary main_call0_v8 main_call0_v9 (broadcastInDim S1600000x1 ![0, 1] bcast_S1x1_S1600000x1_0_1),
    StableHlo.binary main_call0_v5 main_call0_v9 main_call0_v10 (cmpi .sle),
    StableHlo.binary main_call0_v7 main_call0_v10 main_call0_v11 andi,
    StableHlo.nullary main_call0_c_3 (constantI S_ 1 1#1),
    StableHlo.binary main_call0_v11 main_call0_c_3 main_call0_v12 (fun x v => Host.reduce IntOp.andi x v reducesTo_S1600000x1_S1600000_d1 h_S_),
    StableHlo.binary main_v5 main_call0_v5 main_call0_v13 (fun x i => Host.gather gather_S100000x64_S1600000x1_S1600000x64_1_0_n_n_0_1_164 x i),
    StableHlo.unary main_call0_v12 main_call0_v14 (broadcastInDim S1600000x64 ![0] bcast_S1600000_S1600000x64_0),
    StableHlo.nullary main_call0_cst (constant (F := Ideal) S_ .f32 0x7FC00000#32),
    StableHlo.unary main_call0_cst main_call0_v15 (broadcastInDim S1600000x64 ![] bcast_S_S1600000x64),
    StableHlo.ternary main_call0_v14 main_call0_v13 main_call0_v15 main_v6 select ]

/-- They are the take's operations. -/
private theorem hostOps1_eq : (hostOps1 : List (HloOp τ sig (Elt Ideal))) = takeOps := by
  iterate 23 (refine congrArg₂ List.cons (by first | exact tref_binary_eq _ _ _ _ _ _ _ _ _ _ | rfl) ?_)
  rfl

/-- Region 1 finds, in the rows' buffer, the rows of the projected table taken at the edges' source words. -/
private theorem V4_v6 (c : Dev nD) :
    (V4 (F := Ideal) m ρ c main_v6 : A2 1600000 64)
      = takeFill (W2 m ρ c (Proc.devRef .tc main_v5)) (W2 m ρ c (Proc.devRef .tc main_v1)) := by
  refine (by unwritten : W4 (F := Ideal) m ρ c (Proc.devRef .tc main_v6) = W3 m ρ c (Proc.devRef .tc main_v6)).trans ?_
  show StableHlo.after hostOps1 (W2 m ρ c) (Proc.devRef .tc main_v6) = _
  rw [hostOps1_eq]
  after_results_simp
  rfl

/-- The source words as the host cut them out of the edge words: word `e` is the edge words' entry `(0, e)`.  Region 0
    does not touch them. -/
private theorem W2_v1_apply (c : Dev nD) (e : Fin 1600000) :
    (W2 (F := Ideal) m ρ c (Proc.devRef .tc main_v1) : (⟨S1600000, .i32⟩ : BufTy).Contents (Elt Ideal)) (ix1 e)
      = aEi m c (ix2 0 e) := by
  rw [W2_of_ne m ρ c main_v1 (by decide)]
  show StableHlo.after hostOps0 (W0 m ρ c) (Proc.devRef .tc main_v1) (ix1 e) = _
  after_results
  refine (shapeCast_apply _ shapeCasts_S1x1600000_S1600000 (ix1 e) (ix2 0 e)
    (by rewrite [Shape.rowMajor_val_two, Shape.rowMajor_val_one]; show 0 * 1600000 + e.val = e.val; omega)).trans ?_
  exact extractStridedSlice_apply ![0, 0] _ slices_S2x1600000_S1x1600000_0_0 (ix2 0 e) (ix2 0 e) (fun a => match a with
    | ⟨0, _⟩ => rfl
    | ⟨1, _⟩ => by show e.val = 0 + e.val; omega)

/-- A start index is its edge's source word wrapped. -/
private theorem startIdx_apply (v1 : (⟨S1600000, .i32⟩ : BufTy).Contents (Elt Ideal)) (e : Fin 1600000) :
    startIdx v1 (ix2 e 0) = wrapW (v1 (ix1 e)) := by
  unfold startIdx
  refine (broadcastInDim_apply _ bcast_S1600000_S1600000x1_0 _ (ix2 e 0) (ix1 e) (fun a => match a with
    | ⟨0, _⟩ => by show e.val = if (1600000 : Nat) = 1 then 0 else e.val; rw [if_neg (by decide)])).trans ?_
  rfl

/-- When every source word lies in `[-100000, 100000)`, every wrapped word lies in `[0, 99999]`, no row is replaced,
    and the row taken for edge `e` is the table's row at `rowOf` of the edge's source word. -/
private theorem takeFill_apply (x : (⟨S100000x64, .f32⟩ : BufTy).Contents (Elt Ideal)) (v1 : (⟨S1600000, .i32⟩ : BufTy).Contents (Elt Ideal))
    (hv : ∀ e : Fin 1600000, IntOp.cmpi .sge (v1 (ix1 e)) 4294867296#32 = 1#1 ∧ IntOp.cmpi .slt (v1 (ix1 e)) 100000#32 = 1#1)
    (e : Fin 1600000) (s : Fin 64) :
    takeFill x v1 (ix2 e s) = x (ix2 (rowOf (v1 (ix1 e))) s) := by
  have hw : ∀ e' : Fin 1600000,
      IntOp.cmpi .sge (startIdx v1 (ix2 e' 0)) 0#32 = 1#1 ∧ IntOp.cmpi .sle (startIdx v1 (ix2 e' 0)) 99999#32 = 1#1 := fun e' => by
    rw [startIdx_apply]
    exact Cert.TakeFill.wrapped_in_range 100000 (by decide) (by decide) 100000#32 4294867296#32 99999#32
      (by decide) (by decide) (by decide) _ (hv e').1 (hv e').2
  have hix : ∀ i : (⟨2, ![1600000, 1]⟩ : Shape).Idx, i = ix2 (i 0) 0 := fun i => by
    funext a
    match a with
    | ⟨0, _⟩ => rfl
    | ⟨1, _⟩ => exact Fin.ext (by have h1 : (i 1).val < 1 := idx2_lt1 i; show (i 1).val = 0; omega)
  unfold takeFill
  refine (congrFun (Cert.TakeFill.select_of_tests bcast_S1600000_S1600000x64_0 reducesTo_S1600000x1_S1600000_d1 h_S_
    _ _ _ _ _ (fun i => by rw [hix i]; exact (hw (i 0)).1) (fun i => by rw [hix i]; exact (hw (i 0)).2) (fun _ => rfl)) (ix2 e s)).trans ?_
  refine (Cert.RowGather.gather_apply 100000 1600000 64 (by decide)
    gather_S100000x64_S1600000x1_S1600000x64_1_0_n_n_0_1_164.wf x (startIdx v1) e s).trans ?_
  refine congrArg (fun r => x (ix2 r s)) (Fin.ext ?_)
  show min (startIdx v1 (ix2 e 0)).toInt.toNat (100000 - 1) = min (wrapW (v1 (ix1 e))).toInt.toNat (100000 - 1)
  rw [startIdx_apply]

/-- After region 1 the message array holds every edge's stalk message, when every source word is in range. -/
theorem v12_eq (c : Dev nD) (hsrc : ∀ e : Fin 1600000, IntOp.cmpi .sge (aEi m c (ix2 0 e)) 4294867296#32 = 1#1 ∧ IntOp.cmpi .slt (aEi m c (ix2 0 e)) 100000#32 = 1#1) :
    (W5 (F := Ideal) m ρ c (Proc.devRef .tc main_v12) : A2 1600000 64) = stalkA (aX m c) (aEi m c) (aRbf m c) (aEnv m c) (aWs m c) (aF1w m c) (aF1b m c) (aF2w m c) (aF2b m c) := by
  have h := arr1 (V4 (F := Ideal) m ρ) c (aEnv m c) (aF1w m c) (aF1b m c) (aF2w m c) (aF2b m c)
    (V4_v11_apply m ρ c) (V4_v7_apply m ρ c) (V4_v9_apply m ρ c) (V4_v8_apply m ρ c) (V4_v10_apply m ρ c)
  have hv : ∀ e : Fin 1600000,
      IntOp.cmpi .sge ((W2 (F := Ideal) m ρ c (Proc.devRef .tc main_v1) : (⟨S1600000, .i32⟩ : BufTy).Contents (Elt Ideal)) (ix1 e)) 4294867296#32 = 1#1
        ∧ IntOp.cmpi .slt ((W2 (F := Ideal) m ρ c (Proc.devRef .tc main_v1) : (⟨S1600000, .i32⟩ : BufTy).Contents (Elt Ideal)) (ix1 e)) 100000#32 = 1#1 :=
    fun e => by rw [W2_v1_apply]; exact hsrc e
  refine ((W5_arr m ρ c 7).trans h).trans ?_
  funext j
  obtain ⟨e, s, rfl⟩ : ∃ e s, j = ix2 e s := ⟨j 0, j 1, eq_ix2 j⟩
  show phi (V4 (F := Ideal) m ρ c main_arg2) (aEnv m c) (aF1w m c) (aF1b m c) (aF2w m c) (aF2b m c) e s
      * (V4 (F := Ideal) m ρ c main_v6 : A2 1600000 64) (ix2 e s)
    = phi (aRbf m c) (aEnv m c) (aF1w m c) (aF1b m c) (aF2w m c) (aF2b m c) e s
      * proj (aX m c) (aWs m c) (rowOf (aEi m c (ix2 0 e))) s
  rw [V4_arg2, V4_v6, takeFill_apply _ _ hv e s, v5_eq, W2_v1_apply]
  rfl

end Cert.KernelIdeal.Val

end
-- ==== Proof.KRegion2.lean ====
/-
  The third kernel region: back to node features, the gate, the residual and the normalisation of each row.

  The region walks the nodes in 20 blocks of 5000.  For each node of a block it multiplies the node's aggregated stalk
  row by the 64 × 128 matrix, passes the 128 numbers through the gate, adds the node's own features and normalises the
  row.  Every entry of the result depends on its own node's rows only, and the blocks tile the nodes, so the array the
  region leaves is one function of the arrays it read.
-/
import proofs.«403891_j71880572666398_2_alg».proof.Proof.Gen.KernelIdeal.Frame
import proofs.«403891_j71880572666398_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The body's operations that are not entry by entry, read at an entry -/

/-- In the 64-term product the left factor is read at the result's row … -/
theorem lhs64_row (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- … and at the summation index as its column; -/
theorem lhs64_col (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- the right factor at the summation index as its row … -/
theorem rhs64_row (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- … and at the result's column. -/
theorem rhs64_col (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A product of a 5000 × 64 block with a 64 × 128 matrix, accumulated from zero: entry (p, q) is the sum over the 64
    shared positions of row p times column q. -/
theorem prod64_apply {φ₁ φ₂ : FTy} (a : FVec Ideal S5000x64 φ₁) (b : FVec Ideal S64x128 φ₂) (p : Fin 5000) (q : Fin 128) :
    matmul dot_S5000x64_S64x128_S5000x128_1_0_0_1_n_n none a b (constant (F := Ideal) S5000x128 .f32 0x00000000#32) (ix2 p q)
      = ∑ s : Fin 64, a (ix2 p s) * b (ix2 s q) := by
  refine (Ideal.matmul_constant_zero_apply dot_S5000x64_S64x128_S5000x128_1_0_0_1_n_n none a b (ix2 p q)).trans ?_
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun ax => Fin.ext (by
    match ax with
    | ⟨0, _⟩ => exact lhs64_row _ _
    | ⟨1, _⟩ => exact (lhs64_col _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun ax => Fin.ext (by
    match ax with
    | ⟨0, _⟩ => exact (rhs64_row _ _).trans hk
    | ⟨1, _⟩ => exact rhs64_col _ _)
  rw [el, er]

/-- The same four readings for the 128-term product. -/
theorem lhs128_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a 5000 × 128 block with a 128 × 128 matrix, accumulated from zero: entry (p, q) is the sum over the
    128 shared positions of row p times column q. -/
theorem prod128_apply {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact lhs128_row _ _
    | ⟨1, _⟩ => exact (lhs128_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (rhs128_row _ _).trans hk
    | ⟨1, _⟩ => exact rhs128_col _ _)
  rw [el, er]

/-- The sum along a row of a 5000 × 128 block, kept as a one-entry row: at (p, u) it is the sum of row p's 128 entries. -/
theorem rowSum_apply (v : FVec Ideal S5000x128 .f32) (hφ : FKind.Formats .f32)
    (hacc : (0x00000000#32 : BitVec 32) = 0x00000000#32) (p : Fin 5000) (u : Fin 1) :
    shapeCast S5000x1 (multiReduction (F := Ideal) .add [1] S5000 v 0x00000000#32 reduces_S5000x128_S5000 hφ hacc) shapeCasts_S5000_S5000x1 (ix2 p u)
      = ∑ c : Fin 128, v (ix2 p c) := by
  refine (shapeCast_apply _ shapeCasts_S5000_S5000x1 (ix2 p u) (ix1 p) ?_).trans ?_
  · rw [Shape.rowMajor_val_two, Shape.rowMajor_val_one]
    show p.val = p.val * 1 + u.val
    omega
  · refine (Ideal.multiReduction_add_single v 0x00000000#32 reduces_S5000x128_S5000 hφ hacc (ix1 p)).trans ?_
    refine Finset.sum_congr rfl fun k _ => congrArg v ?_
    funext ax
    apply Fin.ext
    match ax with
    | ⟨0, _⟩ => rfl
    | ⟨1, _⟩ => rfl

/-- A one-entry-per-row column spread over the 128 columns reads, at (p, q), the column's entry of row p. -/
theorem spreadCol_apply {α : Type} (v : S5000x1.Idx → α) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ =>
    show p.val = if (5000 : Nat) = 1 then 0 else p.val
    rw [if_neg (by decide)]
  | ⟨1, _⟩ =>
    show (0 : Nat) = if (1 : Nat) = 1 then 0 else q.val
    rw [if_pos rfl]

/-- One row spread over the 5000 rows reads, at (p, q), the row's entry q. -/
theorem spreadRow_apply {α : Type} (v : S1x128.Idx → α) (p : Fin 5000) (q : Fin 128) :
    broadcastTo S5000x128 v broadcasts_S1x128_S5000x128 (ix2 p q) = v (ix2 (0 : Fin 1) q) :=
  broadcastTo_1b_ab_apply v broadcasts_S1x128_S5000x128 p q

/-- The logistic function of a block, entry by entry. -/
theorem logistic_apply {s : Shape} {φ : FTy} (v : FVec Ideal s φ) (i : s.Idx) : logistic v i = Ideal.logistic (v i) := rfl
/-- The reciprocal square root of a block, entry by entry. -/
theorem rsqrt_apply {s : Shape} {φ : FTy} (v : FVec Ideal s φ) (i : s.Idx) : rsqrt v i = Ideal.rsqrt (v i) := rfl
/-- A word read as an extended real. -/
theorem word_ideal (φ : FTy) (b : BitVec φ.bits) : Scalar.ofBits (F := Ideal) φ b = Ideal.ofBits φ b := rfl

/-! ## The body's result at an entry -/

/-- The first coordinate of an index given by its coordinates. -/
theorem ix2_row {n0 n1 : Nat} (a : Fin n0) (b : Fin n1) : (ix2 a b) 0 = a := rfl
/-- The second coordinate of an index given by its coordinates. -/
theorem ix2_col {n0 n1 : Nat} (a : Fin n0) (b : Fin n1) : (ix2 a b) 1 = b := rfl

/-- What the body stores at row p, column q of its block: the row of the node's own features plus the gate of the
    node's stalk row mapped back to node features, normalised, at q. The six small blocks are read as the transposes
    and one-row forms they are. -/
theorem body_apply (x0 : Vec Ideal S5000x64 .f32) (x1 : Vec Ideal S5000x128 .f32) (x2 : Vec Ideal S64x128 .f32)
    (x3 : Vec Ideal S128x128 .f32) (x4 : Vec Ideal S1x128 .f32) (x5 : Vec Ideal S128x128 .f32)
    (x6 x7 x8 : Vec Ideal S1x128 .f32)
    (g1w : A2 128 128) (g1b : A1 128) (g2w : A2 128 128) (g2b lng lnb : A1 128)
    (h3 : ∀ d k : Fin 128, x3 (ix2 d k) = g1w (ix2 k d)) (h4 : ∀ k : Fin 128, x4 (ix2 (0 : Fin 1) k) = g1b (ix1 k))
    (h5 : ∀ k d : Fin 128, x5 (ix2 k d) = g2w (ix2 d k)) (h6 : ∀ k : Fin 128, x6 (ix2 (0 : Fin 1) k) = g2b (ix1 k))
    (h7 : ∀ k : Fin 128, x7 (ix2 (0 : Fin 1) k) = lng (ix1 k)) (h8 : ∀ k : Fin 128, x8 (ix2 (0 : Fin 1) k) = lnb (ix1 k))
    (p : Fin 5000) (q : Fin 128) :
    k2_pay1 (k2_pay2 x0 x2 x3 x4 x5 x6 x1) (k2_pay3 x0 x2 x3 x4 x5 x6 x1) (k2_pay4 (F := Ideal)) x7 x8 (ix2 p q)
      = lnRow (fun c => x1 (ix2 p c) + gateRow (fun d => recv x0 x2 (ix2 p d)) g1w g1b g2w g2b c) lng lnb q := by
  unfold k2_pay1 k2_pay3 k2_pay2 k2_pay4 lnRow meanRow gateRow recv silu
  simp only [addf_apply, mulf_apply, subf_apply, divf_apply, truncf_apply, broadcast_apply, logistic_apply, rsqrt_apply,
    word_ideal, shapeCast_self, prod64_apply, prod128_apply, rowSum_apply, spreadCol_apply, spreadRow_apply,
    ix2_row, ix2_col, h3, h4, h5, h6, h7, h8]
  rw [rowSum_apply, rowSum_apply]
  simp only [addf_apply, mulf_apply, subf_apply, divf_apply, truncf_apply, broadcast_apply, logistic_apply, rsqrt_apply,
    word_ideal, shapeCast_self, prod64_apply, prod128_apply, spreadCol_apply, spreadRow_apply,
    ix2_row, ix2_col, h3, h4, h5, h6, h7, h8]
  rw [rowSum_apply]
  simp only [addf_apply, mulf_apply, subf_apply, divf_apply, truncf_apply, broadcast_apply, logistic_apply, rsqrt_apply,
    word_ideal, shapeCast_self, prod64_apply, prod128_apply, spreadCol_apply, spreadRow_apply,
    ix2_row, ix2_col, h3, h4, h5, h6, h7, h8]

/-! ## From the block to the arrays -/

/-- A row of the block holds the layer's last part of the arrays at the row it was cut from: the node's own features
    and its aggregated stalk row are the block's row `p` (`h0`, `h1`), the 64 × 128 matrix is whole (`h2`). -/
theorem entry_apply (x0 : Vec Ideal S5000x64 .f32) (x1 : Vec Ideal S5000x128 .f32) (x2 : Vec Ideal S64x128 .f32)
    (x3 : Vec Ideal S128x128 .f32) (x4 : Vec Ideal S1x128 .f32) (x5 : Vec Ideal S128x128 .f32)
    (x6 x7 x8 : Vec Ideal S1x128 .f32)
    (u : A2 100000 64) (x : A2 100000 128) (wr : A2 64 128)
    (g1w : A2 128 128) (g1b : A1 128) (g2w : A2 128 128) (g2b lng lnb : A1 128)
    (p : Fin 5000) (r : Fin 100000) (q : Fin 128)
    (h0 : ∀ s : Fin 64, x0 (ix2 p s) = u (ix2 r s)) (h1 : ∀ k : Fin 128, x1 (ix2 p k) = x (ix2 r k))
    (h2 : ∀ (s : Fin 64) (k : Fin 128), x2 (ix2 s k) = wr (ix2 s k))
    (h3 : ∀ d k : Fin 128, x3 (ix2 d k) = g1w (ix2 k d)) (h4 : ∀ k : Fin 128, x4 (ix2 (0 : Fin 1) k) = g1b (ix1 k))
    (h5 : ∀ k d : Fin 128, x5 (ix2 k d) = g2w (ix2 d k)) (h6 : ∀ k : Fin 128, x6 (ix2 (0 : Fin 1) k) = g2b (ix1 k))
    (h7 : ∀ k : Fin 128, x7 (ix2 (0 : Fin 1) k) = lng (ix1 k)) (h8 : ∀ k : Fin 128, x8 (ix2 (0 : Fin 1) k) = lnb (ix1 k)) :
    k2_pay1 (k2_pay2 x0 x2 x3 x4 x5 x6 x1) (k2_pay3 x0 x2 x3 x4 x5 x6 x1) (k2_pay4 (F := Ideal)) x7 x8 (ix2 p q)
      = tail (recv u wr) x g1w g1b g2w g2b lng lnb (ix2 r q) := by
  refine (body_apply x0 x1 x2 x3 x4 x5 x6 x7 x8 g1w g1b g2w g2b lng lnb h3 h4 h5 h6 h7 h8 p q).trans ?_
  show lnRow _ lng lnb q = lnRow _ lng lnb q
  refine congrArg (fun y => lnRow y lng lnb q) (funext fun c => ?_)
  rw [h1 c]
  refine congrArg (fun a => x (ix2 r c) + gateRow a g1w g1b g2w g2b c) (funext fun d => ?_)
  show ∑ s : Fin 64, x0 (ix2 p s) * x2 (ix2 s d) = ∑ s : Fin 64, u (ix2 r s) * wr (ix2 s d)
  exact Finset.sum_congr rfl fun s _ => by rw [h0 s, h2 s d]

variable (V : (c : Dev nD) → (b : Ref sig .tc) → Buf (Elt Ideal) ((c : Thread nD τ).loc b))

/-- The printed index maps over the 20 points: the three row-blocked windows step one block of rows per point, the
    seven others stay on their one block. -/
theorem steps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_9.index t (0 : Fin 2) = t.val ∧ win2_9.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Row `p` of the stalk block at point `t` is row `5000 t + p` of the aggregated stalk array. -/
theorem stalkRows (c : Dev nD) (t : Fin cfg2.N) (p : Fin 5000) (r : Fin 100000) (hr : r.val = t.val * 5000 + p.val) (s : Fin 64) :
    (iblk2 V c 0 t : Vec Ideal S5000x64 .f32) (ix2 p s) = (V c main_v15 : A2 100000 64) (ix2 r s) := by
  obtain ⟨e0, e1, -⟩ := steps t
  unfold iblk2
  rw [View.read_apply]
  show V c main_v15 _ = V c main_v15 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 64 + 1 * s.val = s.val; rw [e1]; omega

/-- Row `p` of the node block at point `t` is row `5000 t + p` of the node table. -/
theorem nodeRows (c : Dev nD) (t : Fin cfg2.N) (p : Fin 5000) (r : Fin 100000) (hr : r.val = t.val * 5000 + p.val) (k : Fin 128) :
    (iblk2 V c 1 t : Vec Ideal S5000x128 .f32) (ix2 p k) = (V c main_arg0 : A2 100000 128) (ix2 r k) := by
  obtain ⟨-, -, e0, e1, -⟩ := steps t
  unfold iblk2
  rw [View.read_apply]
  show V c main_arg0 _ = V c main_arg0 _
  congr 1
  funext a
  apply Fin.ext
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

/-- The 64 × 128 matrix is read whole at every point. -/
theorem recvWhole (c : Dev nD) (t : Fin cfg2.N) (s : Fin 64) (k : Fin 128) :
    (iblk2 V c 2 t : Vec Ideal S64x128 .f32) (ix2 s k) = (V c main_arg5 : A2 64 128) (ix2 s k) := by
  obtain ⟨-, -, -, -, -, -, e0, e1, -⟩ := steps t
  unfold iblk2
  rw [View.read_apply]
  show V c main_arg5 _ = V c main_arg5 _
  congr 1
  funext a
  apply Fin.ext
  match a with
  | ⟨0, _⟩ => show win2_2.index t (0 : Fin 2) * 64 + 1 * s.val = s.val; rw [e0]; omega
  | ⟨1, _⟩ => show win2_2.index t (1 : Fin 2) * 128 + 1 * k.val = k.val; rw [e1]; omega

/-- The gate's first 128 × 128 matrix is read whole at every point. -/
theorem gate1Whole (c : Dev nD) (t : Fin cfg2.N) (d k : Fin 128) :
    (iblk2 V c 3 t : Vec Ideal S128x128 .f32) (ix2 d k) = (V c main_v16 : A2 128 128) (ix2 d k) := by
  obtain ⟨-, -, -, -, -, -, -, -, e0, e1, -⟩ := steps t
  unfold iblk2
  rw [View.read_apply]
  show V c main_v16 _ = V c main_v16 _
  congr 1
  funext a
  apply Fin.ext
  match a with
  | ⟨0, _⟩ => show win2_3.index t (0 : Fin 2) * 128 + 1 * d.val = d.val; rw [e0]; omega
  | ⟨1, _⟩ => show win2_3.index t (1 : Fin 2) * 128 + 1 * k.val = k.val; rw [e1]; omega

/-- The gate's first bias row is read whole at every point. -/
theorem bias1Whole (c : Dev nD) (t : Fin cfg2.N) (k : Fin 128) :
    (iblk2 V c 4 t : Vec Ideal S1x128 .f32) (ix2 (0 : Fin 1) k) = (V c main_v18 : A2 1 128) (ix2 0 k) := by
  obtain ⟨-, -, -, -, -, -, -, -, -, -, e0, e1, -⟩ := steps t
  unfold iblk2
  rw [View.read_apply]
  show V c main_v18 _ = V c main_v18 _
  congr 1
  funext a
  apply Fin.ext
  match a with
  | ⟨0, _⟩ => show win2_4.index t (0 : Fin 2) * 1 + 1 * 0 = 0; rw [e0]
  | ⟨1, _⟩ => show win2_4.index t (1 : Fin 2) * 128 + 1 * k.val = k.val; rw [e1]; omega

/-- The gate's second 128 × 128 matrix is read whole at every point. -/
theorem gate2Whole (c : Dev nD) (t : Fin cfg2.N) (k d : Fin 128) :
    (iblk2 V c 5 t : Vec Ideal S128x128 .f32) (ix2 k d) = (V c main_v17 : A2 128 128) (ix2 k d) := by
  obtain ⟨-, -, -, -, -, -, -, -, -, -, -, -, e0, e1, -⟩ := steps t
  unfold iblk2
  rw [View.read_apply]
  show V c main_v17 _ = V c main_v17 _
  congr 1
  funext a
  apply Fin.ext
  match a with
  | ⟨0, _⟩ => show win2_5.index t (0 : Fin 2) * 128 + 1 * k.val = k.val; rw [e0]; omega
  | ⟨1, _⟩ => show win2_5.index t (1 : Fin 2) * 128 + 1 * d.val = d.val; rw [e1]; omega

/-- The gate's second bias row is read whole at every point. -/
theorem bias2Whole (c : Dev nD) (t : Fin cfg2.N) (k : Fin 128) :
    (iblk2 V c 6 t : Vec Ideal S1x128 .f32) (ix2 (0 : Fin 1) k) = (V c main_v19 : A2 1 128) (ix2 0 k) := by
  obtain ⟨-, -, -, -, -, -, -, -, -, -, -, -, -, -, e0, e1, -⟩ := steps t
  unfold iblk2
  rw [View.read_apply]
  show V c main_v19 _ = V c main_v19 _
  congr 1
  funext a
  apply Fin.ext
  match a with
  | ⟨0, _⟩ => show win2_6.index t (0 : Fin 2) * 1 + 1 * 0 = 0; rw [e0]
  | ⟨1, _⟩ => show win2_6.index t (1 : Fin 2) * 128 + 1 * k.val = k.val; rw [e1]; omega

/-- The normalisation's scale row is read whole at every point. -/
theorem scaleWhole (c : Dev nD) (t : Fin cfg2.N) (k : Fin 128) :
    (iblk2 V c 7 t : Vec Ideal S1x128 .f32) (ix2 (0 : Fin 1) k) = (V c main_v20 : A2 1 128) (ix2 0 k) := by
  obtain ⟨-, -, -, -, -, -, -, -, -, -, -, -, -, -, -, -, e0, e1, -⟩ := steps t
  unfold iblk2
  rw [View.read_apply]
  show V c main_v20 _ = V c main_v20 _
  congr 1
  funext a
  apply Fin.ext
  match a with
  | ⟨0, _⟩ => show win2_7.index t (0 : Fin 2) * 1 + 1 * 0 = 0; rw [e0]
  | ⟨1, _⟩ => show win2_7.index t (1 : Fin 2) * 128 + 1 * k.val = k.val; rw [e1]; omega

/-- The normalisation's shift row is read whole at every point. -/
theorem shiftWhole (c : Dev nD) (t : Fin cfg2.N) (k : Fin 128) :
    (iblk2 V c 8 t : Vec Ideal S1x128 .f32) (ix2 (0 : Fin 1) k) = (V c main_v21 : A2 1 128) (ix2 0 k) := by
  obtain ⟨-, -, -, -, -, -, -, -, -, -, -, -, -, -, -, -, -, -, e0, e1⟩ := steps t
  unfold iblk2
  rw [View.read_apply]
  show V c main_v21 _ = V c main_v21 _
  congr 1
  funext a
  apply Fin.ext
  match a with
  | ⟨0, _⟩ => show win2_8.index t (0 : Fin 2) * 1 + 1 * 0 = 0; rw [e0]
  | ⟨1, _⟩ => show win2_8.index t (1 : Fin 2) * 128 + 1 * k.val = k.val; rw [e1]; omega

/-! ## What each point writes back, and the array -/

/-- The loads and the store of the body are at the origin of their blocks. -/
theorem origin2 : (![0, 0] : Fin 2 → Nat) = fun _ => 0 := funext fun a => by fin_cases a <;> rfl

/-- What point `t` writes back is block `t` of the layer's last part of the arrays the region found. -/
theorem written_eq (c : Dev nD) (g1w : A2 128 128) (g1b : A1 128) (g2w : A2 128 128) (g2b : A1 128) (lng lnb : A1 128)
    (hg1w : ∀ (d k : Fin 128), (V c main_v16 : A2 128 128) (ix2 d k) = g1w (ix2 k d))
    (hg1b : ∀ k : Fin 128, (V c main_v18 : A2 1 128) (ix2 0 k) = g1b (ix1 k))
    (hg2w : ∀ (k d : Fin 128), (V c main_v17 : A2 128 128) (ix2 k d) = g2w (ix2 d k))
    (hg2b : ∀ k : Fin 128, (V c main_v19 : A2 1 128) (ix2 0 k) = g2b (ix1 k))
    (hlng : ∀ k : Fin 128, (V c main_v20 : A2 1 128) (ix2 0 k) = lng (ix1 k))
    (hlnb : ∀ k : Fin 128, (V c main_v21 : A2 1 128) (ix2 0 k) = lnb (ix1 k)) (t : Fin cfg2.N) :
    (dat2 (F := Ideal) V c).flushed 9 t
      = ((cfg2.win 9).blk t).view.read (Elt Ideal)
          (tail (recv (V c main_v15 : A2 100000 64) (V c main_arg5)) (V c main_arg0) g1w g1b g2w g2b lng lnb : A2 100000 128) := by
  show (cfg2.win 9).cut (grid2.coords t) ((dat2 V c).after 9 t) = _
  rw [after2_9]
  unfold out2_9
  rw [View.canon_unit_zero origin2]
  simp only [View.ld_unit_zero (S := S5000x64) origin2, View.ld_unit_zero (S := S5000x128) origin2,
    View.ld_unit_zero (S := S64x128) origin2, View.ld_unit_zero (S := S128x128) origin2,
    View.ld_unit_zero (S := S1x128) origin2]
  funext y
  obtain ⟨p, q, rfl⟩ : ∃ (p : Fin 5000) (q : Fin 128), y = ix2 p q := ⟨y 0, y 1, eq_ix2 y⟩
  have hN : t.val < 20 := Nat.lt_of_lt_of_eq t.isLt N_2
  obtain ⟨-, -, -, -, e0, e1, -⟩ := steps t
  have hemb : ((cfg2.win 9).blk t).view.emb (ix2 p q) = ix2 (⟨t.val * 5000 + p.val, by omega⟩ : Fin 100000) q := by
    funext a
    apply Fin.ext
    match a with
    | ⟨0, _⟩ => show win2_9.index t (0 : Fin 2) * 5000 + 1 * p.val = t.val * 5000 + p.val; rw [e0]; omega
    | ⟨1, _⟩ => show win2_9.index t (1 : Fin 2) * 128 + 1 * q.val = q.val; rw [e1]; omega
  rw [View.read_apply, hemb]
  show k2_pay1 (k2_pay2 (iblk2 V c 0 t) (iblk2 V c 2 t) (iblk2 V c 3 t) (iblk2 V c 4 t) (iblk2 V c 5 t) (iblk2 V c 6 t) (iblk2 V c 1 t))
      (k2_pay3 (iblk2 V c 0 t) (iblk2 V c 2 t) (iblk2 V c 3 t) (iblk2 V c 4 t) (iblk2 V c 5 t) (iblk2 V c 6 t) (iblk2 V c 1 t))
      (k2_pay4 (F := Ideal)) (iblk2 V c 7 t) (iblk2 V c 8 t) (ix2 p q) = _
  exact entry_apply (iblk2 V c 0 t) (iblk2 V c 1 t) (iblk2 V c 2 t) (iblk2 V c 3 t) (iblk2 V c 4 t) (iblk2 V c 5 t)
    (iblk2 V c 6 t) (iblk2 V c 7 t) (iblk2 V c 8 t) (V c main_v15) (V c main_arg0) (V c main_arg5) g1w g1b g2w g2b lng lnb
    p ⟨t.val * 5000 + p.val, by omega⟩ q
    (fun s => stalkRows V c t p ⟨t.val * 5000 + p.val, by omega⟩ rfl s)
    (fun k => nodeRows V c t p ⟨t.val * 5000 + p.val, by omega⟩ rfl k)
    (fun s k => recvWhole V c t s k)
    (fun d k => (gate1Whole V c t d k).trans (hg1w d k))
    (fun k => (bias1Whole V c t k).trans (hg1b k))
    (fun k d => (gate2Whole V c t k d).trans (hg2w k d))
    (fun k => (bias2Whole V c t k).trans (hg2b k))
    (fun k => (scaleWhole V c t k).trans (hlng k))
    (fun k => (shiftWhole V c t k).trans (hlnb k))

/-- A row of the result lies in point `t`'s block when it is one of rows `5000 t … 5000 t + 4999`. -/
theorem mem_rows (t : Fin cfg2.N) (i : S100000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v22).slice (win2_9.rect t)).set ↔ _
  rw [View.set_slice_whole, Rect.mem_set_unit]
  exact Iff.rfl

/-- Every entry of the result is in the block of the point its row's number divided by 5000 names, and every point
    writes back. -/
theorem rows_covered (i : S100000x128.Idx) :
    ∃ t : Fin cfg2.N, (cfg2.win 9).flush t = true ∧ i ∈ ((cfg2.win 9).blk t).view.set := by
  have h0 : (i 0).val < 100000 := (i 0).isLt
  have h1 : (i 1).val < 128 := (i 1).isLt
  have hN : cfg2.N = 20 := N_2
  refine ⟨⟨(i 0).val / 5000, by rw [hN]; omega⟩, flush2_9 _, ?_⟩
  rw [mem_rows]
  obtain ⟨-, -, -, -, e0, e1, -⟩ := steps ⟨(i 0).val / 5000, by rw [hN]; omega⟩
  intro a
  match a with
  | ⟨0, _⟩ =>
    show win2_9.index _ (0 : Fin 2) * 5000 ≤ (i 0).val ∧ (i 0).val < win2_9.index _ (0 : Fin 2) * 5000 + 5000
    rw [e0]
    show (i 0).val / 5000 * 5000 ≤ (i 0).val ∧ (i 0).val < (i 0).val / 5000 * 5000 + 5000
    omega
  | ⟨1, _⟩ =>
    show win2_9.index _ (1 : Fin 2) * 128 ≤ (i 1).val ∧ (i 1).val < win2_9.index _ (1 : Fin 2) * 128 + 128
    rw [e1]
    omega

/-- The array region 2 leaves: the layer's last part applied to the aggregated stalk rows it found, mapped back to node
    features. The small arrays it found are the transposes and one-row forms of `g1w`, `g1b`, `g2w`, `g2b`, `lng`, `lnb`. -/
theorem arr2 (c : Dev nD) (g1w : A2 128 128) (g1b : A1 128) (g2w : A2 128 128) (g2b : A1 128) (lng lnb : A1 128)
    (hg1w : ∀ (d k : Fin 128), (V c main_v16 : A2 128 128) (ix2 d k) = g1w (ix2 k d))
    (hg1b : ∀ k : Fin 128, (V c main_v18 : A2 1 128) (ix2 0 k) = g1b (ix1 k))
    (hg2w : ∀ (k d : Fin 128), (V c main_v17 : A2 128 128) (ix2 k d) = g2w (ix2 d k))
    (hg2b : ∀ k : Fin 128, (V c main_v19 : A2 1 128) (ix2 0 k) = g2b (ix1 k))
    (hlng : ∀ k : Fin 128, (V c main_v20 : A2 1 128) (ix2 0 k) = lng (ix1 k))
    (hlnb : ∀ k : Fin 128, (V c main_v21 : A2 1 128) (ix2 0 k) = lnb (ix1 k)) :
    ((dat2 (F := Ideal) V c).arrAt 9 cfg2.N : A2 100000 128)
      = tail (recv (V c main_v15 : A2 100000 64) (V c main_arg5)) (V c main_arg0) g1w g1b g2w g2b lng lnb := by
  exact (dat2 (F := Ideal) V c).arrAt_eq_of_cover 9
    (tail (recv (V c main_v15 : A2 100000 64) (V c main_arg5)) (V c main_arg0) g1w g1b g2w g2b lng lnb)
    (fun t _ => written_eq V c g1w g1b g2w g2b lng lnb hg1w hg1b hg2w hg2b hlng hlnb t) rows_covered

end Cert.KernelIdeal.Val

end
-- ==== Proof.KStage3.lean ====
/-
  The program from the end of its second region to its end.

  The host adds, for every node, the stalk messages of the edges whose target word names it (a scatter-add into a zero
  array) and transposes and reshapes the gate's and the normalisation's small arrays.  The third region maps each node's
  sum back to node features through `W_recv` and applies the layer's last part.
-/
import proofs.«403891_j71880572666398_2_alg».proof.Proof.Gen.KernelIdeal.Frame
import proofs.«403891_j71880572666398_2_alg».proof.Proof.Spec
import proofs.«403891_j71880572666398_2_alg».proof.Proof.KArgs
import proofs.«403891_j71880572666398_2_alg».proof.Proof.KStage2
import proofs.«403891_j71880572666398_2_alg».proof.Proof.KRegion2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- A buffer a host stretch does not write keeps its contents over the stretch. -/
local macro "skip_stretch" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The two layout operations of the last host stretch, read at an index -/

/-- The transpose of a square matrix at `(d, k)` is the matrix at `(k, d)`. -/
theorem transposeSq_apply (x : A2 128 128) (d k : Fin 128) :
    (transpose S128x128 [1, 0] x transposes_S128x128_S128x128_1_0 : A2 128 128) (ix2 d k) = x (ix2 k d) :=
  transpose_apply [1, 0] x transposes_S128x128_S128x128_1_0 (ix2 d k) (ix2 k d) (fun b => match b with
    | ⟨0, _⟩ => rfl
    | ⟨1, _⟩ => rfl)

/-- A vector reshaped to one row, at column `k`, is the vector at `k`. -/
theorem oneRow_apply (x : A1 128) (k : Fin 128) :
    (shapeCast S1x128 x shapeCasts_S128_S1x128 : A2 1 128) (ix2 0 k) = x (ix1 k) :=
  shapeCast_apply x shapeCasts_S128_S1x128 (ix2 0 k) (ix1 k)
    (by rewrite [Shape.rowMajor_val_two, Shape.rowMajor_val_one]; show k.val = 0 * 128 + k.val; omega)

/-! ## The arguments the third region and the last host stretch read, as launched -/

theorem V6_arg0 (c : Dev nD) : (V6 (F := Ideal) m ρ c main_arg0 : A2 100000 128) = aX m c :=
  ((W7_arr m ρ c 1).trans (((dat2 (V6 m ρ) c).arrAt_in 1 rfl _).trans (A_eq2 (V6 m ρ) c 1))).symm.trans (W7_main_arg0 m ρ c)

theorem V6_arg5 (c : Dev nD) : (V6 (F := Ideal) m ρ c main_arg5 : A2 64 128) = aWr m c :=
  ((W7_arr m ρ c 2).trans (((dat2 (V6 m ρ) c).arrAt_in 2 rfl _).trans (A_eq2 (V6 m ρ) c 2))).symm.trans (W7_main_arg5 m ρ c)

theorem W5_arg10 (c : Dev nD) : W5 (F := Ideal) m ρ c (Proc.devRef .tc main_arg10) = aG1w m c := by
  have h6 : W6 m ρ c (Proc.devRef .tc main_arg10) = W5 m ρ c (Proc.devRef .tc main_arg10) := by skip_stretch hostOps2
  exact h6.symm.trans ((W7_of_ne m ρ c main_arg10 (by decide)).symm.trans (W7_main_arg10 m ρ c))

theorem W5_arg11 (c : Dev nD) : W5 (F := Ideal) m ρ c (Proc.devRef .tc main_arg11) = aG1b m c := by
  have h6 : W6 m ρ c (Proc.devRef .tc main_arg11) = W5 m ρ c (Proc.devRef .tc main_arg11) := by skip_stretch hostOps2
  exact h6.symm.trans ((W7_of_ne m ρ c main_arg11 (by decide)).symm.trans (W7_main_arg11 m ρ c))

theorem W5_arg12 (c : Dev nD) : W5 (F := Ideal) m ρ c (Proc.devRef .tc main_arg12) = aG2w m c := by
  have h6 : W6 m ρ c (Proc.devRef .tc main_arg12) = W5 m ρ c (Proc.devRef .tc main_arg12) := by skip_stretch hostOps2
  exact h6.symm.trans ((W7_of_ne m ρ c main_arg12 (by decide)).symm.trans (W7_main_arg12 m ρ c))

theorem W5_arg13 (c : Dev nD) : W5 (F := Ideal) m ρ c (Proc.devRef .tc main_arg13) = aG2b m c := by
  have h6 : W6 m ρ c (Proc.devRef .tc main_arg13) = W5 m ρ c (Proc.devRef .tc main_arg13) := by skip_stretch hostOps2
  exact h6.symm.trans ((W7_of_ne m ρ c main_arg13 (by decide)).symm.trans (W7_main_arg13 m ρ c))

theorem W5_arg14 (c : Dev nD) : W5 (F := Ideal) m ρ c (Proc.devRef .tc main_arg14) = aLng m c := by
  have h6 : W6 m ρ c (Proc.devRef .tc main_arg14) = W5 m ρ c (Proc.devRef .tc main_arg14) := by skip_stretch hostOps2
  exact h6.symm.trans ((W7_of_ne m ρ c main_arg14 (by decide)).symm.trans (W7_main_arg14 m ρ c))

theorem W5_arg15 (c : Dev nD) : W5 (F := Ideal) m ρ c (Proc.devRef .tc main_arg15) = aLnb m c := by
  have h6 : W6 m ρ c (Proc.devRef .tc main_arg15) = W5 m ρ c (Proc.devRef .tc main_arg15) := by skip_stretch hostOps2
  exact h6.symm.trans ((W7_of_ne m ρ c main_arg15 (by decide)).symm.trans (W7_main_arg15 m ρ c))

/-! ## The gate's and the normalisation's small arrays as the third region finds them -/

theorem V6_v16_apply (c : Dev nD) (d k : Fin 128) : (V6 (F := Ideal) m ρ c main_v16 : A2 128 128) (ix2 d k) = aG1w m c (ix2 k d) := by
  have h : W6 (F := Ideal) m ρ c (Proc.devRef .tc main_v16)
      = transpose S128x128 [1, 0] (W5 (F := Ideal) m ρ c (Proc.devRef .tc main_arg10)) transposes_S128x128_S128x128_1_0 := by
    show StableHlo.after hostOps2 (W5 m ρ c) (Proc.devRef .tc main_v16) = _
    generalize W5 m ρ c = V
    after_results
  show W6 (F := Ideal) m ρ c (Proc.devRef .tc main_v16) (ix2 d k) = _
  rw [h, W5_arg10]
  exact transposeSq_apply _ d k

theorem V6_v17_apply (c : Dev nD) (d k : Fin 128) : (V6 (F := Ideal) m ρ c main_v17 : A2 128 128) (ix2 d k) = aG2w m c (ix2 k d) := by
  have h : W6 (F := Ideal) m ρ c (Proc.devRef .tc main_v17)
      = transpose S128x128 [1, 0] (W5 (F := Ideal) m ρ c (Proc.devRef .tc main_arg12)) transposes_S128x128_S128x128_1_0 := by
    show StableHlo.after hostOps2 (W5 m ρ c) (Proc.devRef .tc main_v17) = _
    generalize W5 m ρ c = V
    after_results
  show W6 (F := Ideal) m ρ c (Proc.devRef .tc main_v17) (ix2 d k) = _
  rw [h, W5_arg12]
  exact transposeSq_apply _ d k

theorem V6_v18_apply (c : Dev nD) (k : Fin 128) : (V6 (F := Ideal) m ρ c main_v18 : A2 1 128) (ix2 0 k) = aG1b m c (ix1 k) := by
  have h : W6 (F := Ideal) m ρ c (Proc.devRef .tc main_v18)
      = shapeCast S1x128 (W5 (F := Ideal) m ρ c (Proc.devRef .tc main_arg11)) shapeCasts_S128_S1x128 := by
    show StableHlo.after hostOps2 (W5 m ρ c) (Proc.devRef .tc main_v18) = _
    generalize W5 m ρ c = V
    after_results
    rfl
  show W6 (F := Ideal) m ρ c (Proc.devRef .tc main_v18) (ix2 0 k) = _
  rw [h, W5_arg11]
  exact oneRow_apply _ k

theorem V6_v19_apply (c : Dev nD) (k : Fin 128) : (V6 (F := Ideal) m ρ c main_v19 : A2 1 128) (ix2 0 k) = aG2b m c (ix1 k) := by
  have h : W6 (F := Ideal) m ρ c (Proc.devRef .tc main_v19)
      = shapeCast S1x128 (W5 (F := Ideal) m ρ c (Proc.devRef .tc main_arg13)) shapeCasts_S128_S1x128 := by
    show StableHlo.after hostOps2 (W5 m ρ c) (Proc.devRef .tc main_v19) = _
    generalize W5 m ρ c = V
    after_results
    rfl
  show W6 (F := Ideal) m ρ c (Proc.devRef .tc main_v19) (ix2 0 k) = _
  rw [h, W5_arg13]
  exact oneRow_apply _ k

theorem V6_v20_apply (c : Dev nD) (k : Fin 128) : (V6 (F := Ideal) m ρ c main_v20 : A2 1 128) (ix2 0 k) = aLng m c (ix1 k) := by
  have h : W6 (F := Ideal) m ρ c (Proc.devRef .tc main_v20)
      = shapeCast S1x128 (W5 (F := Ideal) m ρ c (Proc.devRef .tc main_arg14)) shapeCasts_S128_S1x128 := by
    show StableHlo.after hostOps2 (W5 m ρ c) (Proc.devRef .tc main_v20) = _
    generalize W5 m ρ c = V
    after_results
    rfl
  show W6 (F := Ideal) m ρ c (Proc.devRef .tc main_v20) (ix2 0 k) = _
  rw [h, W5_arg14]
  exact oneRow_apply _ k

theorem V6_v21_apply (c : Dev nD) (k : Fin 128) : (V6 (F := Ideal) m ρ c main_v21 : A2 1 128) (ix2 0 k) = aLnb m c (ix1 k) := by
  have h : W6 (F := Ideal) m ρ c (Proc.devRef .tc main_v21)
      = shapeCast S1x128 (W5 (F := Ideal) m ρ c (Proc.devRef .tc main_arg15)) shapeCasts_S128_S1x128 := by
    show StableHlo.after hostOps2 (W5 m ρ c) (Proc.devRef .tc main_v21) = _
    generalize W5 m ρ c = V
    after_results
    rfl
  show W6 (F := Ideal) m ρ c (Proc.devRef .tc main_v21) (ix2 0 k) = _
  rw [h, W5_arg15]
  exact oneRow_apply _ k

/-! ## The scatter-add's three operands -/

/-- The target words as the first host stretch leaves them and as nothing later touches them: row 1 of the edge array. -/
theorem W5_v3_apply (c : Dev nD) (e : Fin 1600000) :
    (W5 (F := Ideal) m ρ c (Proc.devRef .tc main_v3) : (⟨1, ![1600000]⟩ : Shape).Idx → BitVec 32) (ix1 e) = aEi m c (ix2 1 e) := by
  have h1 : W1 (F := Ideal) m ρ c (Proc.devRef .tc main_v3)
      = shapeCast S1600000 (extractStridedSlice S1x1600000 ![1, 0] (W0 (F := Ideal) m ρ c (Proc.devRef .tc main_arg1)) slices_S2x1600000_S1x1600000_1_0)
          shapeCasts_S1x1600000_S1600000 := by
    show StableHlo.after hostOps0 (W0 m ρ c) (Proc.devRef .tc main_v3) = _
    generalize W0 m ρ c = V
    after_results
    rfl
  have h5 : W5 (F := Ideal) m ρ c (Proc.devRef .tc main_v3) = W1 (F := Ideal) m ρ c (Proc.devRef .tc main_v3) :=
    calc W5 m ρ c (Proc.devRef .tc main_v3)
      _ = W4 m ρ c (Proc.devRef .tc main_v3) := W5_of_ne m ρ c main_v3 (by decide)
      _ = W3 m ρ c (Proc.devRef .tc main_v3) := by skip_stretch hostOps1_1
      _ = W2 m ρ c (Proc.devRef .tc main_v3) := by skip_stretch hostOps1
      _ = W1 m ρ c (Proc.devRef .tc main_v3) := W2_of_ne m ρ c main_v3 (by decide)
  rw [h5, h1]
  refine (shapeCast_apply _ shapeCasts_S1x1600000_S1600000 (ix1 e) (ix2 0 e)
    (by rewrite [Shape.rowMajor_val_two, Shape.rowMajor_val_one]; show 0 * 1600000 + e.val = e.val; omega)).trans ?_
  exact extractStridedSlice_apply ![1, 0] _ slices_S2x1600000_S1x1600000_1_0 (ix2 0 e) (ix2 1 e) (fun a => match a with
    | ⟨0, _⟩ => by show 1 = 1 + 0; omega
    | ⟨1, _⟩ => by show e.val = 0 + e.val; omega)

/-- The aggregated stalk messages the third region finds: the scatter-add of every edge's message into a zero array at
    the edge's target word. -/
theorem V6_v15 (c : Dev nD) (hsrc : ∀ e : Fin 1600000, IntOp.cmpi .sge (aEi m c (ix2 0 e)) 4294867296#32 = 1#1 ∧ IntOp.cmpi .slt (aEi m c (ix2 0 e)) 100000#32 = 1#1) :
    (V6 (F := Ideal) m ρ c main_v15 : A2 100000 64)
      = Ideal.hostScatterAdd scatter_S100000x64_S1600000x1_S1600000x64_1_0_0_1 (fun _ => 0) (tgtIdx (aEi m c))
          (stalkA (aX m c) (aEi m c) (aRbf m c) (aEnv m c) (aWs m c) (aF1w m c) (aF1b m c) (aF2w m c) (aF2b m c)) := by
  have h : W6 (F := Ideal) m ρ c (Proc.devRef .tc main_v15)
      = Host.scatterAdd (F := Ideal) scatter_S100000x64_S1600000x1_S1600000x64_1_0_0_1
          (broadcastInDim S100000x64 ![] bcast_S_S100000x64 (constant (F := Ideal) S_ FTy.f32 0#32))
          (broadcastInDim S1600000x1 ![0] bcast_S1600000_S1600000x1_0 (W5 (F := Ideal) m ρ c (Proc.devRef .tc main_v3)))
          (W5 (F := Ideal) m ρ c (Proc.devRef .tc main_v12)) := by
    show StableHlo.after hostOps2 (W5 m ρ c) (Proc.devRef .tc main_v15) = _
    generalize W5 m ρ c = V
    after_results
  have hx : (broadcastInDim S100000x64 ![] bcast_S_S100000x64 (constant (F := Ideal) S_ FTy.f32 0#32) : A2 100000 64) = fun _ => 0 := by
    funext j
    refine (broadcastInDim_apply _ bcast_S_S100000x64 _ j ix0 (fun a => a.elim0)).trans ?_
    exact Ideal.ofBits_zero_f32
  have hi : (broadcastInDim S1600000x1 ![0] bcast_S1600000_S1600000x1_0 (W5 (F := Ideal) m ρ c (Proc.devRef .tc main_v3)) : I2 1600000 1)
      = tgtIdx (aEi m c) := by
    funext j
    refine (broadcastInDim_apply _ bcast_S1600000_S1600000x1_0 _ j (ix1 (j 0)) (fun a => match a with
      | ⟨0, _⟩ => by show (j 0).val = if (1600000 : Nat) = 1 then 0 else (j 0).val; rw [if_neg (by decide)])).trans ?_
    exact W5_v3_apply m ρ c (j 0)
  show W6 (F := Ideal) m ρ c (Proc.devRef .tc main_v15) = _
  rw [h, hx, hi, v12_eq m ρ c hsrc]
  rfl

/-- The result array the program ends with: the layer's last part of the aggregated stalk messages mapped back through
    `W_recv`, when every source word is in range. -/
theorem kernel_value (c : Dev nD) (hsrc : ∀ e : Fin 1600000, IntOp.cmpi .sge (aEi m c (ix2 0 e)) 4294867296#32 = 1#1 ∧ IntOp.cmpi .slt (aEi m c (ix2 0 e)) 100000#32 = 1#1) :
    (W7 (F := Ideal) m ρ c (Proc.devRef .tc main_v22) : A2 100000 128)
      = tail (recv (Ideal.hostScatterAdd scatter_S100000x64_S1600000x1_S1600000x64_1_0_0_1 (fun _ => 0) (tgtIdx (aEi m c))
            (stalkA (aX m c) (aEi m c) (aRbf m c) (aEnv m c) (aWs m c) (aF1w m c) (aF1b m c) (aF2w m c) (aF2b m c))) (aWr m c))
          (aX m c) (aG1w m c) (aG1b m c) (aG2w m c) (aG2b m c) (aLng m c) (aLnb m c) := by
  refine (W7_arr m ρ c 9).trans ?_
  refine (arr2 (V6 m ρ) c (aG1w m c) (aG1b m c) (aG2w m c) (aG2b m c) (aLng m c) (aLnb m c)
    (V6_v16_apply m ρ c) (V6_v18_apply m ρ c) (V6_v17_apply m ρ c) (V6_v19_apply m ρ c) (V6_v20_apply m ρ c)
    (V6_v21_apply m ρ c)).trans ?_
  rw [V6_v15 m ρ c hsrc, V6_arg5, V6_arg0]

end Cert.KernelIdeal.Val

end
-- ==== Proof.RStalk.lean ====
/-
  The reference up to the edges' messages mapped back to node features.

  The reference computes every edge's filter, gathers the edge's source row of the node table (the source word wrapped,
  then clamped into the table), projects it into the stalk, multiplies the two component by component and maps the
  product back to node features through `W_recv`: entry by entry that is `recv` of the stalk messages.
-/
import proofs.«403891_j71880572666398_2_alg».proof.Proof.Gen.ReferenceIdeal.Read
import proofs.«403891_j71880572666398_2_alg».proof.Proof.Spec
import proofs.«403891_j71880572666398_2_alg».proof.Proof.LibRowGather
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefVal

open Cert.ReferenceIdeal Cert.ReferenceIdeal.Gen Cert.ReferenceIdeal.Read Cert.Spec
open Idealize.ShloMosaic Idealize.ShloMosaic.TcCoe Idealize.ShloMosaic.ValueIdx Idealize.SL.Sem

/-! ### Index bookkeeping

Each stage reads its operand through a composed index map; at an index given by its coordinates each such map is
again an index given by coordinates. -/

/-- Two rank-2 indices with the same coordinates are equal. -/
local macro "idx2" : tactic => `(tactic| (funext a; match a with | ⟨0, _⟩ => rfl | ⟨1, _⟩ => rfl))
/-- Two rank-1 indices with the same coordinate are equal. -/
local macro "idx1" : tactic => `(tactic| (funext a; match a with | ⟨0, _⟩ => rfl))

/-- The word of `1.0` is the extended real `1`. -/
private theorem one_word : Ideal.ofBits .f32 0x3F800000#32 = 1 := IdealRules.sign_bit.ideal_onePat .f32

/-! ### The filter -/

/-- The first filter layer before its activation is `hid`. -/
private theorem v8_at (x2 : A2 1600000 32) (x6 : A2 128 32) (x7 : A1 128) (e : Fin 1600000) (k : Fin 128) :
    val_main_v8 (F := Ideal) x2 x6 x7 (ix2 e k) = hid x2 x6 x7 e k := by
  rw [val_main_v8_apply, val_main_v5_apply, val_main_v7_apply, val_main_v6_apply,
    show idx_main_v6 (idx_main_v7 (ix2 e k)) = ix1 k from by idx1]
  unfold hid
  refine congrArg (· + x7 (ix1 k)) (Finset.sum_congr rfl fun j _ => ?_)
  rw [val_main_v4_apply, show lidx_main_v5 (ix2 e k) j = ix2 e j from by idx2,
    show idx_main_v4 (ridx_main_v5 (ix2 e k) j) = ix2 k j from by idx2]

/-- The activation: negate, exponential, add one, reciprocal and multiply are `silu`. -/
private theorem v9_at (x2 : A2 1600000 32) (x6 : A2 128 32) (x7 : A1 128) (e : Fin 1600000) (k : Fin 128) :
    val_main_v9 (F := Ideal) x2 x6 x7 (ix2 e k) = silu (hid x2 x6 x7 e k) := by
  rw [val_main_v9_apply, val_main_call0_v5_apply, val_main_call0_v4_apply, val_main_call0_cst_0_apply,
    val_main_call0_v3_apply, val_main_call0_v2_apply, val_main_call0_cst_apply, val_main_call0_v1_apply,
    val_main_call0_v0_apply, v8_at]
  show hid x2 x6 x7 e k * Ideal.div (Ideal.ofBits .f32 0x3F800000#32)
      (Ideal.ofBits .f32 0x3F800000#32 + Ideal.exp (-(hid x2 x6 x7 e k))) = silu (hid x2 x6 x7 e k)
  rw [one_word]
  rfl

/-- The second filter layer with its bias. -/
private theorem v14_at (x2 : A2 1600000 32) (x6 : A2 128 32) (x7 : A1 128) (x8 : A2 64 128) (x9 : A1 64)
    (e : Fin 1600000) (s : Fin 64) :
    val_main_v14 (F := Ideal) x2 x6 x7 x8 x9 (ix2 e s)
      = (∑ k : Fin 128, silu (hid x2 x6 x7 e k) * x8 (ix2 s k)) + x9 (ix1 s) := by
  rw [val_main_v14_apply, val_main_v11_apply, val_main_v13_apply, val_main_v12_apply,
    show idx_main_v12 (idx_main_v13 (ix2 e s)) = ix1 s from by idx1]
  refine congrArg (· + x9 (ix1 s)) (Finset.sum_congr rfl fun k _ => ?_)
  rw [show lidx_main_v11 (ix2 e s) k = ix2 e k from by idx2, v9_at, val_main_v10_apply,
    show idx_main_v10 (ridx_main_v11 (ix2 e s) k) = ix2 s k from by idx2]

/-- The filter scaled by the edge's envelope is `phi`. -/
private theorem v17_at (x2 : A2 1600000 32) (x3 : A1 1600000) (x6 : A2 128 32) (x7 : A1 128) (x8 : A2 64 128) (x9 : A1 64)
    (e : Fin 1600000) (s : Fin 64) :
    val_main_v17 (F := Ideal) x2 x3 x6 x7 x8 x9 (ix2 e s) = phi x2 x3 x6 x7 x8 x9 e s := by
  rw [val_main_v17_apply, v14_at, val_main_v16_apply, val_main_v15_apply,
    show idx_main_v15 (idx_main_v16 (ix2 e s)) = ix1 e from by idx1]
  rfl

/-! ### The gathered source rows -/

/-- The start word of edge `e`'s gather is its source word wrapped. -/
private theorem v23_at (x1 : I2 2 1600000) (e : Fin 1600000) :
    val_main_v23 (F := Ideal) x1 (ix2 e 0) = wrapW (x1 (ix2 0 e)) := by
  have h1 : val_main_v1 (F := Ideal) x1 (ix1 e) = x1 (ix2 0 e) := by
    rw [val_main_v1_apply, val_main_v0_apply]
    refine congrArg x1 ?_
    funext a
    match a with
    | ⟨0, _⟩ => rfl
    | ⟨1, _⟩ => exact Fin.ext (Nat.mod_eq_of_lt e.isLt)
  rw [val_main_v23_apply, show idx_main_v23 (ix2 e 0) = ix1 e from by idx1, val_main_v22_apply, val_main_v19_apply,
    val_main_v21_apply, val_main_v18_apply, val_main_v20_apply, val_main_c_apply, val_main_c_0_apply, h1]
  rfl

/-- The gathered row of edge `e` is the row of the node table its source word selects. -/
private theorem v24_at (x0 : A2 100000 128) (x1 : I2 2 1600000) (e : Fin 1600000) (k : Fin 128) :
    val_main_v24 (F := Ideal) x0 x1 (ix2 e k) = x0 (ix2 (rowOf (x1 (ix2 0 e))) k) := by
  unfold val_main_v24
  refine (Cert.RowGather.gather_apply 100000 1600000 128 (by decide)
    gather_S100000x128_S1600000x1_S1600000x128_1_0_n_n_0_1_1128.wf x0 (val_main_v23 (F := Ideal) x1) e k).trans ?_
  refine congrArg (fun r => x0 (ix2 r k)) (Fin.ext ?_)
  show min (val_main_v23 (F := Ideal) x1 (ix2 e 0)).toInt.toNat (100000 - 1)
    = min (wrapW (x1 (ix2 0 e))).toInt.toNat (100000 - 1)
  rw [v23_at]

/-- The source row projected into the stalk is `proj`. -/
private theorem v26_at (x0 : A2 100000 128) (x1 : I2 2 1600000) (x4 : A2 64 128) (e : Fin 1600000) (s : Fin 64) :
    val_main_v26 (F := Ideal) x0 x1 x4 (ix2 e s) = proj x0 x4 (rowOf (x1 (ix2 0 e))) s := by
  rw [val_main_v26_apply]
  unfold proj
  refine Finset.sum_congr rfl fun k _ => ?_
  rw [show lidx_main_v26 (ix2 e s) k = ix2 e k from by idx2, v24_at, val_main_v25_apply,
    show idx_main_v25 (ridx_main_v26 (ix2 e s) k) = ix2 s k from by idx2]

/-- The product of the filter and the projected source row is the stalk message. -/
private theorem v27_at (x0 : A2 100000 128) (x1 : I2 2 1600000) (x2 : A2 1600000 32) (x3 : A1 1600000) (x4 : A2 64 128)
    (x6 : A2 128 32) (x7 : A1 128) (x8 : A2 64 128) (x9 : A1 64) (e : Fin 1600000) (s : Fin 64) :
    val_main_v27 (F := Ideal) x0 x1 x2 x3 x4 x6 x7 x8 x9 (ix2 e s) = stalk x0 x1 x2 x3 x4 x6 x7 x8 x9 e s := by
  rw [val_main_v27_apply, v17_at, v26_at]
  rfl

/-- The reference's per-edge messages in node features are the stalk messages mapped back through `W_recv`. -/
theorem v28_eq (x0 : A2 100000 128) (x1 : I2 2 1600000) (x2 : A2 1600000 32) (x3 : A1 1600000) (x4 x5 : A2 64 128) (x6 : A2 128 32) (x7 : A1 128) (x8 : A2 64 128) (x9 : A1 64) :
    val_main_v28 (F := Ideal) x0 x1 x2 x3 x4 x5 x6 x7 x8 x9 = recv (stalkA x0 x1 x2 x3 x4 x6 x7 x8 x9) x5 := by
  funext i
  obtain ⟨e, d, rfl⟩ : ∃ (e : Fin 1600000) (d : Fin 128), i = ix2 e d := ⟨i 0, i 1, eq_ix2 i⟩
  rw [val_main_v28_apply]
  unfold recv
  refine Finset.sum_congr rfl fun s _ => ?_
  rw [show lidx_main_v28 (ix2 e d) s = ix2 e s from by idx2, v27_at,
    show ridx_main_v28 (ix2 e d) s = ix2 s d from by idx2]
  rfl

/-- The reference's scatter indices are the edges' target words as a column. -/
theorem v30_eq (x1 : I2 2 1600000) : val_main_v30 (F := Ideal) x1 = tgtIdx x1 := by
  funext i
  obtain ⟨e, z, rfl⟩ : ∃ (e : Fin 1600000) (z : Fin 1), i = ix2 e z := ⟨i 0, i 1, eq_ix2 i⟩
  rw [val_main_v30_apply, val_main_v3_apply, val_main_v2_apply]
  unfold tgtIdx
  refine congrArg x1 ?_
  funext a
  match a with
  | ⟨0, _⟩ => rfl
  | ⟨1, _⟩ => exact Fin.ext (Nat.mod_eq_of_lt e.isLt)

/-- The array the reference's scatter adds into is the zero array. -/
theorem v29_eq : (val_main_v29 (F := Ideal) : A2 100000 128) = fun _ => 0 := by
  funext i
  rw [val_main_v29_apply, val_main_cst_apply]
  exact Ideal.ofBits_zero_f32

end Cert.ReferenceIdeal.RefVal

end
-- ==== Proof.RTail.lean ====
/-
  The reference from the aggregated node features to its result.

  After the scatter the reference applies the gate, adds the node's own features and normalises every row: entry by
  entry that is the layer's last part, `tail`, of the aggregated array.

  Row by row: with `a` the aggregated row of a node, the gate's hidden layer is `a · g1_wᵀ + g1_b`, its activation
  `h ↦ h · 1 / (1 + e⁻ʰ)` is `silu`, the gate is the activated layer times `g2_wᵀ` plus `g2_b`, and `y` is the node's
  own row plus the gate. The row's mean is its sum over the 128 features divided by the word of 128.0, its variance the
  mean of the squared centred entries, and the result is the centred entry times the reciprocal root of the variance
  plus the word of 1e-5, times the scale, plus the shift.
-/
import proofs.«403891_j71880572666398_2_alg».proof.Proof.Gen.ReferenceIdeal.Read
import proofs.«403891_j71880572666398_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefVal

open Cert.ReferenceIdeal Cert.ReferenceIdeal.Gen Cert.ReferenceIdeal.Read Cert.Spec
open Idealize.ShloMosaic Idealize.ShloMosaic.TcCoe Idealize.ShloMosaic.ValueIdx Idealize.SL.Sem

namespace Tail

/-- The word of 1.0 reads as one. -/
theorem one_word : Ideal.ofBits .f32 0x3F800000#32 = 1 := IdealRules.sign_bit.ideal_onePat .f32

/-! ### The composed index functions, at an index given by its coordinates -/

theorem lidx33 (n : Fin 100000) (c k : Fin 128) : lidx_main_v33 (ix2 n c) k = ix2 n k :=
  funext fun a => Fin.ext (by match a with | ⟨0, _⟩ => rfl | ⟨1, _⟩ => rfl)
theorem ridx33 (n : Fin 100000) (c k : Fin 128) : idx_main_v32 (ridx_main_v33 (ix2 n c) k) = ix2 c k :=
  funext fun a => Fin.ext (by match a with | ⟨0, _⟩ => rfl | ⟨1, _⟩ => rfl)
theorem bidx35 (n : Fin 100000) (c : Fin 128) : idx_main_v34 (idx_main_v35 (ix2 n c)) = ix1 c :=
  funext fun a => Fin.ext (by match a with | ⟨0, _⟩ => rfl)
theorem lidx39 (n : Fin 100000) (c k : Fin 128) : lidx_main_v39 (ix2 n c) k = ix2 n k :=
  funext fun a => Fin.ext (by match a with | ⟨0, _⟩ => rfl | ⟨1, _⟩ => rfl)
theorem ridx39 (n : Fin 100000) (c k : Fin 128) : idx_main_v38 (ridx_main_v39 (ix2 n c) k) = ix2 c k :=
  funext fun a => Fin.ext (by match a with | ⟨0, _⟩ => rfl | ⟨1, _⟩ => rfl)
theorem bidx41 (n : Fin 100000) (c : Fin 128) : idx_main_v40 (idx_main_v41 (ix2 n c)) = ix1 c :=
  funext fun a => Fin.ext (by match a with | ⟨0, _⟩ => rfl)
theorem bidx63 (n : Fin 100000) (c : Fin 128) : idx_main_v62 (idx_main_v63 (ix2 n c)) = ix1 c :=
  funext fun a => Fin.ext (by match a with | ⟨0, _⟩ => rfl)
theorem bidx66 (n : Fin 100000) (c : Fin 128) : idx_main_v65 (idx_main_v66 (ix2 n c)) = ix1 c :=
  funext fun a => Fin.ext (by match a with | ⟨0, _⟩ => rfl)
theorem sidx44 (n : Fin 100000) (z : Fin 1) (k : Fin 128) : idx_main_v44 (idx_main_v45 (ix2 n z)) k = ix2 n k :=
  funext fun a => Fin.ext (by match a with | ⟨0, _⟩ => rfl | ⟨1, _⟩ => rfl)
theorem sidx51 (n : Fin 100000) (z : Fin 1) (k : Fin 128) : idx_main_v51 (idx_main_v52 (ix2 n z)) k = ix2 n k :=
  funext fun a => Fin.ext (by match a with | ⟨0, _⟩ => rfl | ⟨1, _⟩ => rfl)
theorem cidx48 (n : Fin 100000) (c : Fin 128) : idx_main_v48 (ix2 n c) = ix2 n (0 : Fin 1) :=
  funext fun a => Fin.ext (by match a with | ⟨0, _⟩ => rfl | ⟨1, _⟩ => rfl)
theorem cidx55 (n : Fin 100000) (c : Fin 128) : idx_main_v55 (ix2 n c) = ix2 n (0 : Fin 1) :=
  funext fun a => Fin.ext (by match a with | ⟨0, _⟩ => rfl | ⟨1, _⟩ => rfl)
theorem cidx60 (n : Fin 100000) (c : Fin 128) : idx_main_v60 (ix2 n c) = ix2 n (0 : Fin 1) :=
  funext fun a => Fin.ext (by match a with | ⟨0, _⟩ => rfl | ⟨1, _⟩ => rfl)

variable (x0 : A2 100000 128) (x1 : I2 2 1600000) (x2 : A2 1600000 32) (x3 : A1 1600000) (x4 x5 : A2 64 128) (x6 : A2 128 32) (x7 : A1 128) (x8 : A2 64 128) (x9 : A1 64) (x10 : A2 128 128) (x11 : A1 128) (x12 : A2 128 128) (x13 x14 x15 : A1 128)

local notation "AG" => val_main_v31 (F := Ideal) x0 x1 x2 x3 x4 x5 x6 x7 x8 x9

/-- The node's own row plus its gate: the row that is normalised. -/
def yrow (A : A2 100000 128) (x0 : A2 100000 128) (x10 : A2 128 128) (x11 : A1 128) (x12 : A2 128 128) (x13 : A1 128)
    (n : Fin 100000) : Fin 128 → EReal :=
  fun c => x0 (ix2 n c) + gateRow (fun d => A (ix2 n d)) x10 x11 x12 x13 c

/-- The gate's hidden layer before its activation. -/
theorem v36_at (n : Fin 100000) (k : Fin 128) :
    val_main_v36 (F := Ideal) x0 x1 x2 x3 x4 x5 x6 x7 x8 x9 x10 x11 (ix2 n k)
      = (∑ d : Fin 128, AG (ix2 n d) * x10 (ix2 k d)) + x11 (ix1 k) := by
  rw [val_main_v36_apply, val_main_v33_apply, val_main_v35_apply, val_main_v34_apply]
  generalize AG = A
  simp only [val_main_v32_apply, lidx33, ridx33, bidx35, Ideal.addf_def]

/-- The outlined activation is `silu` of the hidden layer. -/
theorem v37_at (n : Fin 100000) (k : Fin 128) :
    val_main_v37 (F := Ideal) x0 x1 x2 x3 x4 x5 x6 x7 x8 x9 x10 x11 (ix2 n k)
      = silu ((∑ d : Fin 128, AG (ix2 n d) * x10 (ix2 k d)) + x11 (ix1 k)) := by
  rw [val_main_v37_apply, val_main_call1_v5_apply, val_main_call1_v4_apply, val_main_call1_cst_0_apply,
    val_main_call1_v3_apply, val_main_call1_v2_apply, val_main_call1_cst_apply, val_main_call1_v1_apply,
    val_main_call1_v0_apply, v36_at]
  generalize (∑ d : Fin 128, AG (ix2 n d) * x10 (ix2 k d)) + x11 (ix1 k) = h
  simp only [Ideal.ofBits_def, one_word]
  rfl

/-- The gate of a node's aggregated row. -/
theorem v42_at (n : Fin 100000) (c : Fin 128) :
    val_main_v42 (F := Ideal) x0 x1 x2 x3 x4 x5 x6 x7 x8 x9 x10 x11 x12 x13 (ix2 n c)
      = gateRow (fun d => AG (ix2 n d)) x10 x11 x12 x13 c := by
  rw [val_main_v42_apply, val_main_v39_apply, val_main_v41_apply, val_main_v40_apply]
  simp only [val_main_v38_apply, lidx39, ridx39, bidx41, v37_at, Ideal.addf_def]
  rfl

/-- The row that is normalised: the node's own row plus the gate. -/
theorem v43_at (n : Fin 100000) (c : Fin 128) :
    val_main_v43 (F := Ideal) x0 x1 x2 x3 x4 x5 x6 x7 x8 x9 x10 x11 x12 x13 (ix2 n c)
      = yrow AG x0 x10 x11 x12 x13 n c := by
  rw [val_main_v43_apply, v42_at]
  rfl

/-- The row's mean. -/
theorem v47_at (n : Fin 100000) (z : Fin 1) :
    val_main_v47 (F := Ideal) x0 x1 x2 x3 x4 x5 x6 x7 x8 x9 x10 x11 x12 x13 (ix2 n z)
      = meanRow (yrow AG x0 x10 x11 x12 x13 n) := by
  rw [val_main_v47_apply, val_main_v45_apply, val_main_v46_apply, val_main_cst_2_apply, val_main_v44_apply,
    val_main_cst_1_apply]
  simp only [sidx44, v43_at, Ideal.ofBits_def, Ideal.hostDivf_def, Ideal.ofBits_zero_f32, zero_add]
  rfl

/-- A centred entry of the row (the first of the reference's two copies). -/
theorem v49_at (n : Fin 100000) (c : Fin 128) :
    val_main_v49 (F := Ideal) x0 x1 x2 x3 x4 x5 x6 x7 x8 x9 x10 x11 x12 x13 (ix2 n c)
      = yrow AG x0 x10 x11 x12 x13 n c - meanRow (yrow AG x0 x10 x11 x12 x13 n) := by
  rw [val_main_v49_apply, val_main_v48_apply, cidx48, v43_at, v47_at]
  rfl

/-- A centred entry of the row (the second copy). -/
theorem v56_at (n : Fin 100000) (c : Fin 128) :
    val_main_v56 (F := Ideal) x0 x1 x2 x3 x4 x5 x6 x7 x8 x9 x10 x11 x12 x13 (ix2 n c)
      = yrow AG x0 x10 x11 x12 x13 n c - meanRow (yrow AG x0 x10 x11 x12 x13 n) := by
  rw [val_main_v56_apply, val_main_v55_apply, cidx55, v43_at, v47_at]
  rfl

/-- The row's variance: the mean of the squared centred entries. -/
theorem v54_at (n : Fin 100000) (z : Fin 1) :
    val_main_v54 (F := Ideal) x0 x1 x2 x3 x4 x5 x6 x7 x8 x9 x10 x11 x12 x13 (ix2 n z)
      = Ideal.div (∑ c' : Fin 128, (yrow AG x0 x10 x11 x12 x13 n c' - meanRow (yrow AG x0 x10 x11 x12 x13 n))
            * (yrow AG x0 x10 x11 x12 x13 n c' - meanRow (yrow AG x0 x10 x11 x12 x13 n)))
          (Ideal.ofBits .f32 0x43000000#32) := by
  rw [val_main_v54_apply, val_main_v52_apply, val_main_v53_apply, val_main_cst_4_apply, val_main_v51_apply,
    val_main_cst_3_apply]
  simp only [sidx51, val_main_v50_apply, v49_at, Ideal.ofBits_def, Ideal.hostDivf_def, Ideal.mulf_def,
    Ideal.ofBits_zero_f32, zero_add]

/-- The reciprocal root of the variance plus the word of 1e-5. -/
theorem v59_at (n : Fin 100000) (z : Fin 1) :
    val_main_v59 (F := Ideal) x0 x1 x2 x3 x4 x5 x6 x7 x8 x9 x10 x11 x12 x13 (ix2 n z)
      = Ideal.rsqrt (Ideal.div (∑ c' : Fin 128, (yrow AG x0 x10 x11 x12 x13 n c' - meanRow (yrow AG x0 x10 x11 x12 x13 n))
            * (yrow AG x0 x10 x11 x12 x13 n c' - meanRow (yrow AG x0 x10 x11 x12 x13 n)))
          (Ideal.ofBits .f32 0x43000000#32) + Ideal.ofBits .f32 0x3727C5AC#32) := by
  rw [val_main_v59_apply, val_main_v58_apply, val_main_v57_apply, val_main_cst_5_apply, v54_at]
  rfl

/-- The reference's result at an entry: the row normalised. -/
theorem v67_at (n : Fin 100000) (c : Fin 128) :
    val_main_v67 (F := Ideal) x0 x1 x2 x3 x4 x5 x6 x7 x8 x9 x10 x11 x12 x13 x14 x15 (ix2 n c)
      = lnRow (yrow AG x0 x10 x11 x12 x13 n) x14 x15 c := by
  rw [val_main_v67_apply, val_main_v64_apply, val_main_v61_apply, val_main_v63_apply, val_main_v62_apply,
    val_main_v66_apply, val_main_v65_apply, val_main_v60_apply, bidx63, bidx66, cidx60, v56_at, v59_at]
  rfl

end Tail

/-- The reference's result is the layer's last part of its aggregated node features. -/
theorem v67_eq (x0 : A2 100000 128) (x1 : I2 2 1600000) (x2 : A2 1600000 32) (x3 : A1 1600000) (x4 x5 : A2 64 128) (x6 : A2 128 32) (x7 : A1 128) (x8 : A2 64 128) (x9 : A1 64) (x10 : A2 128 128) (x11 : A1 128) (x12 : A2 128 128) (x13 x14 x15 : A1 128) :
    val_main_v67 (F := Ideal) x0 x1 x2 x3 x4 x5 x6 x7 x8 x9 x10 x11 x12 x13 x14 x15
      = tail (val_main_v31 (F := Ideal) x0 x1 x2 x3 x4 x5 x6 x7 x8 x9) x0 x10 x11 x12 x13 x14 x15 := by
  funext i
  obtain ⟨n, c, rfl⟩ : ∃ (n : Fin 100000) (c : Fin 128), i = ix2 n c := ⟨i 0, i 1, eq_ix2 i⟩
  rw [Tail.v67_at]
  rfl

end Cert.ReferenceIdeal.RefVal

end
-- ==== Proof.LibReal.lean ====
/-
  Extended reals that are real numbers.

  On the extended reals multiplication does not distribute over addition at the infinities, so a proof that moves a
  factor across a sum first shows that the terms are real numbers.  This file has the predicate and its closure under
  the operations met here: sums, products, finite sums, the logistic function.
-/
import Idealize.ShloMosaic.PureOps.Ideal

noncomputable section

open scoped BigOperators

namespace Cert.RealVal

open Idealize.ShloMosaic

/-- `x` is (the image of) a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function of a real number is a real number. -/
theorem IsReal.logistic {x : EReal} (hx : IsReal x) : IsReal (Ideal.logistic x) := by
  obtain ⟨a, rfl⟩ := hx; exact ⟨_, Ideal.logistic_coe a⟩

end Cert.RealVal

end
-- ==== Proof.LibRowScatter.lean ====
/-
  A scatter that adds whole rows, read at an index.

  The operand is a matrix of `N` rows and `C` columns, the updates a matrix of `E` rows and `C` columns, and the
  scatter indices one word per update row.  Update row `e` is added to operand row `idx e`, column by column, when that
  word, read signed, lies in `[0, N)`; otherwise the update row is dropped.  So entry `(n, c)` of the result is the
  operand's entry plus the sum of the entries `(e, c)` of the updates over the update rows `e` whose word names `n`.
-/
import Idealize.ShloMosaic.PureOps.Ideal
import Idealize.ShloMosaic.Lib.ValueIdx

noncomputable section

open scoped BigOperators

namespace Cert.RowScatter

open Idealize.ShloMosaic Idealize.ShloMosaic.ValueIdx

/-- The dimension numbers of a scatter of rows: the update's column axis is its window, the operand's row axis is the
    scattered one, each scatter index is one word. -/
abbrev dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row a word names, when it names one: the word read signed, if it lies in `[0, N)`. -/
def rowOf? (N : Nat) (w : BitVec 32) : Option (Fin N) :=
  if h : 0 ≤ w.toInt ∧ w.toInt < (N : Int) then some ⟨w.toInt.toNat, by omega⟩ else none

/-- Where update entry `(e, c)` lands: in column `c` of the row its word names, or nowhere. -/
theorem resultIdx?_eq (N E C : Nat) (wf : ScatterDims.WF ⟨2, ![N, C]⟩ ⟨2, ![E, 1]⟩ ⟨2, ![E, C]⟩ [1] [0] [0] 1)
    (idx : IVec ⟨2, ![E, 1]⟩ 32) (e : Fin E) (c : Fin C) :
    (dims N E C wf).resultIdx? (ix2 e c) idx = (rowOf? N (idx (ix2 e 0))).map (fun n => ix2 n c) := by
  -- the start index on the scattered axis is the update row's word, read signed …
  have hs0 : (dims N E C wf).start (ix2 e c) idx 0 = (idx (ix2 e 0)).toInt := by
    unfold ScatterDims.start
    rw [dif_pos (show (0 : Fin 2) ∈ (dims N E C wf).scatterDimsToOperandDims from List.mem_singleton.mpr rfl)]
    have hsi : (dims N E C wf).siIdx (ix2 e c) ⟨List.idxOf (0 : Fin 2) (dims N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  -- … and zero on the window axis, which the map does not name;
  have hs1 : (dims N E C wf).start (ix2 e c) idx 1 = 0 := by
    unfold ScatterDims.start
    exact dif_neg (show (1 : Fin 2) ∉ ([0] : List (Fin 2)) by decide)
  -- the window coordinate is zero on the inserted axis and the update's column on the other.
  have hw0 : (dims N E C wf).window (ix2 e c) 0 = 0 := by
    unfold ScatterDims.window
    exact dif_neg (show (0 : Fin 2) ∉ (List.finRange 2).filter (· ∉ ([0] : List (Fin 2))) by decide)
  have hw1 : (dims N E C wf).window (ix2 e c) 1 = c.val := by
    unfold ScatterDims.window
    rw [dif_pos (show (1 : Fin 2) ∈ (dims N E C wf).sKept from
      (show (1 : Fin 2) ∈ (List.finRange 2).filter (· ∉ ([0] : List (Fin 2))) by decide))]
    rfl
  unfold ScatterDims.resultIdx? rowOf?
  by_cases hw : 0 ≤ (idx (ix2 e 0)).toInt ∧ (idx (ix2 e 0)).toInt < (N : Int)
  · have hall : ∀ a : Fin 2, 0 ≤ (dims N E C wf).start (ix2 e c) idx a + (dims N E C wf).window (ix2 e c) a ∧
        (dims N E C wf).start (ix2 e c) idx a + (dims N E C wf).window (ix2 e c) a
          < ((⟨2, ![N, C]⟩ : Shape).size a : Int) := by
      intro a
      match a with
      | ⟨0, _⟩ =>
        show 0 ≤ (dims N E C wf).start (ix2 e c) idx 0 + (dims N E C wf).window (ix2 e c) 0 ∧
          (dims N E C wf).start (ix2 e c) idx 0 + (dims N E C wf).window (ix2 e c) 0 < (N : Int)
        rw [hs0, hw0]; simpa using hw
      | ⟨1, _⟩ =>
        show 0 ≤ (dims N E C wf).start (ix2 e c) idx 1 + (dims N E C wf).window (ix2 e c) 1 ∧
          (dims N E C wf).start (ix2 e c) idx 1 + (dims N E C wf).window (ix2 e c) 1 < (C : Int)
        rw [hs1, hw1]; have := c.isLt; omega
    rw [dif_pos hall, dif_pos hw, Option.map_some]
    congr 1
    funext a; refine Fin.ext ?_
    match a with
    | ⟨0, _⟩ =>
      show ((dims N E C wf).start (ix2 e c) idx 0 + (dims N E C wf).window (ix2 e c) 0).toNat = _
      rw [hs0, hw0]; simp
    | ⟨1, _⟩ =>
      show ((dims N E C wf).start (ix2 e c) idx 1 + (dims N E C wf).window (ix2 e c) 1).toNat = _
      rw [hs1, hw1]; simp
  · have hnall : ¬ ∀ a : Fin 2, 0 ≤ (dims N E C wf).start (ix2 e c) idx a + (dims N E C wf).window (ix2 e c) a ∧
        (dims N E C wf).start (ix2 e c) idx a + (dims N E C wf).window (ix2 e c) a
          < ((⟨2, ![N, C]⟩ : Shape).size a : Int) := by
      intro h
      have h0 : 0 ≤ (dims N E C wf).start (ix2 e c) idx 0 + (dims N E C wf).window (ix2 e c) 0 ∧
          (dims N E C wf).start (ix2 e c) idx 0 + (dims N E C wf).window (ix2 e c) 0 < (N : Int) := h 0
      rw [hs0, hw0] at h0
      exact hw (by simpa using h0)
    rw [dif_neg hnall, dif_neg hw, Option.map_none]

/-- THE SCATTER READ AT `(n, c)`: the operand's entry plus the updates' entries `(e, c)` over the rows `e` whose word
    names `n`. -/
theorem hostScatterAdd_apply (N E C : Nat) (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ 32) (upd : (⟨2, ![E, C]⟩ : Shape).Idx → EReal)
    (n : Fin N) (c : Fin C) :
    Ideal.hostScatterAdd (dims N E C wf) x idx upd (ix2 n c)
      = x (ix2 n c) + ∑ e : Fin E, if rowOf? N (idx (ix2 e 0)) = some n then upd (ix2 e c) else 0 := by
  -- an update entry `(e, c')` lands on `(n, c)` exactly when its row's word names `n` and `c' = c`
  have hland : ∀ (e : Fin E) (c' : Fin C),
      ((dims N E C wf).resultIdx? (ix2 e c') idx = some (ix2 n c)) ↔ (rowOf? N (idx (ix2 e 0)) = some n ∧ c' = c) := by
    intro e c'
    rw [resultIdx?_eq]
    cases hr : rowOf? N (idx (ix2 e 0)) with
    | none => simp
    | some m =>
      rw [Option.map_some, Option.some.injEq, Option.some.injEq]
      constructor
      · intro h
        exact ⟨congrFun h 0, congrFun h 1⟩
      · rintro ⟨h1, h2⟩
        rw [h1, h2]
  unfold Ideal.hostScatterAdd
  congr 1
  rw [Finset.sum_filter, sum_idx2]
  refine Finset.sum_congr rfl fun e _ => ?_
  -- in update row `e` only column `c` can contribute
  rw [Finset.sum_eq_single c]
  · by_cases hr : rowOf? N (idx (ix2 e 0)) = some n
    · rw [if_pos ((hland e c).2 ⟨hr, rfl⟩), if_pos hr]
    · rw [if_neg (fun h => hr ((hland e c).1 h).1), if_neg hr]
  · intro c' _ hc'
    exact if_neg (fun h => hc' ((hland e c').1 h).2)
  · intro h
    exact absurd (Finset.mem_univ c) h

end Cert.RowScatter

end
-- ==== Proof.Exchange.lean ====
/-
  Adding the edges' messages and mapping them back to node features, in either order.

  Let `U` hold one stalk message (64 real numbers) per edge and `W` be a real 64 × 128 matrix.  Adding, for every node,
  the messages of the edges that point at it and then multiplying the sum by `W` gives the same 128 numbers as
  multiplying every message by `W` first and then adding: Σ_s (Σ_e U[e,s]) · W[s,d] = Σ_e Σ_s U[e,s] · W[s,d].  The
  law is distributivity, which on the extended reals needs the entries to be real numbers.
-/
import proofs.«403891_j71880572666398_2_alg».proof.Proof.Spec
import proofs.«403891_j71880572666398_2_alg».proof.Proof.LibReal
import proofs.«403891_j71880572666398_2_alg».proof.Proof.LibRowScatter

noncomputable section

open scoped BigOperators

namespace Cert.Exchange

open Idealize.ShloMosaic Idealize.ShloMosaic.ValueIdx Cert.Spec Cert.RealVal

/-- The two orders agree, entry by entry, when the messages and the matrix are real. The operand of both scatters is
    the zero array. -/
theorem recv_scatter (wf64 : ScatterDims.WF ⟨2, ![100000, 64]⟩ ⟨2, ![1600000, 1]⟩ ⟨2, ![1600000, 64]⟩ [1] [0] [0] 1)
    (wf128 : ScatterDims.WF ⟨2, ![100000, 128]⟩ ⟨2, ![1600000, 1]⟩ ⟨2, ![1600000, 128]⟩ [1] [0] [0] 1)
    (idx : I2 1600000 1) (U : A2 1600000 64) (wr : A2 64 128)
    (hU : ∀ j, IsReal (U j)) (hW : ∀ j, IsReal (wr j)) :
    recv (Ideal.hostScatterAdd (Cert.RowScatter.dims 100000 1600000 64 wf64) (fun _ => 0) idx U) wr
      = Ideal.hostScatterAdd (Cert.RowScatter.dims 100000 1600000 128 wf128) (fun _ => 0) idx (recv U wr) := by
  classical
  funext j
  obtain ⟨n, d, rfl⟩ : ∃ (n : Fin 100000) (d : Fin 128), j = ix2 n d := ⟨j 0, j 1, eq_ix2 j⟩
  -- Real witnesses of the messages and of the matrix.
  have hU' : ∀ j, ∃ r : ℝ, U j = (r : EReal) := hU
  have hW' : ∀ j, ∃ r : ℝ, wr j = (r : EReal) := hW
  choose u hu using hU'
  choose w hw using hW'
  -- A choice between a real number and zero is the real choice, coerced.
  have ite_coe : ∀ (p : Prop) [Decidable p] (r : ℝ), (if p then (r : EReal) else 0) = ((if p then r else 0 : ℝ) : EReal) := by
    intro p _ r
    by_cases h : p
    · rw [if_pos h, if_pos h]
    · rw [if_neg h, if_neg h, EReal.coe_zero]
  -- One row of messages times the matrix is the coercion of the real sum of products.
  have hrecv : ∀ e : Fin 1600000, recv U wr (ix2 e d) = ((∑ s : Fin 64, u (ix2 e s) * w (ix2 s d) : ℝ) : EReal) := by
    intro e
    show (∑ s : Fin 64, U (ix2 e s) * wr (ix2 s d)) = _
    rw [coe_sum]
    refine Finset.sum_congr rfl fun s _ => ?_
    rw [hu, hw, EReal.coe_mul]
  -- Adding first, then multiplying: the left side is the coercion of a real double sum.
  have hL : recv (Ideal.hostScatterAdd (Cert.RowScatter.dims 100000 1600000 64 wf64) (fun _ => 0) idx U) wr (ix2 n d)
      = ((∑ s : Fin 64, (∑ e : Fin 1600000,
            if Cert.RowScatter.rowOf? 100000 (idx (ix2 e 0)) = some n then u (ix2 e s) else 0) * w (ix2 s d) : ℝ) : EReal) := by
    show (∑ s : Fin 64,
        Ideal.hostScatterAdd (Cert.RowScatter.dims 100000 1600000 64 wf64) (fun _ => 0) idx U (ix2 n s) * wr (ix2 s d)) = _
    rw [coe_sum]
    refine Finset.sum_congr rfl fun s _ => ?_
    rw [Cert.RowScatter.hostScatterAdd_apply, zero_add, EReal.coe_mul, coe_sum, hw]
    refine congrArg (fun t : EReal => t * (w (ix2 s d) : EReal)) ?_
    refine Finset.sum_congr rfl fun e _ => ?_
    rw [hu, ite_coe]
  -- Multiplying first, then adding: the right side is the coercion of the real double sum in the other order.
  have hR : Ideal.hostScatterAdd (Cert.RowScatter.dims 100000 1600000 128 wf128) (fun _ => 0) idx (recv U wr) (ix2 n d)
      = ((∑ e : Fin 1600000,
            if Cert.RowScatter.rowOf? 100000 (idx (ix2 e 0)) = some n then ∑ s : Fin 64, u (ix2 e s) * w (ix2 s d) else 0 : ℝ) : EReal) := by
    rw [Cert.RowScatter.hostScatterAdd_apply, zero_add, coe_sum]
    refine Finset.sum_congr rfl fun e _ => ?_
    rw [hrecv, ite_coe]
  rw [hL, hR]
  refine congrArg (fun r : ℝ => (r : EReal)) ?_
  -- The two real double sums agree: distribute, exchange the order of summation, and take the choice out of the inner sum.
  simp only [Finset.sum_mul, ite_mul, zero_mul]
  rw [Finset.sum_comm]
  refine Finset.sum_congr rfl fun e _ => ?_
  by_cases h : Cert.RowScatter.rowOf? 100000 (idx (ix2 e 0)) = some n
  · simp only [if_pos h]
  · simp only [if_neg h, Finset.sum_const_zero]

end Cert.Exchange

end
-- ==== Proof.SpecReal.lean ====
/-
  The stalk messages of real inputs are real numbers: each is built from the inputs by sums, products and the logistic
  function only.
-/
import proofs.«403891_j71880572666398_2_alg».proof.Proof.Spec
import proofs.«403891_j71880572666398_2_alg».proof.Proof.LibReal

noncomputable section

open scoped BigOperators

namespace Cert.Spec

open Idealize.ShloMosaic Idealize.ShloMosaic.ValueIdx Cert.RealVal

/-- Every stalk message is a real number when every float input it reads is. -/
theorem stalkA_isReal (x : A2 100000 128) (ei : I2 2 1600000) (rbf : A2 1600000 32) (env : A1 1600000) (ws : A2 64 128)
    (f1w : A2 128 32) (f1b : A1 128) (f2w : A2 64 128) (f2b : A1 64)
    (hx : ∀ j, IsReal (x j)) (hrbf : ∀ j, IsReal (rbf j)) (henv : ∀ j, IsReal (env j)) (hws : ∀ j, IsReal (ws j))
    (hf1w : ∀ j, IsReal (f1w j)) (hf1b : ∀ j, IsReal (f1b j)) (hf2w : ∀ j, IsReal (f2w j)) (hf2b : ∀ j, IsReal (f2b j))
    (j : (⟨2, ![1600000, 64]⟩ : Shape).Idx) : IsReal (stalkA x ei rbf env ws f1w f1b f2w f2b j) := by
  -- `silu h = h · logistic h` is real when `h` is.
  have hsilu : ∀ h : EReal, IsReal h → IsReal (silu h) := fun h hh => by
    unfold silu; exact hh.mul hh.logistic
  -- The hidden layer: a finite sum of products of reals, plus a real bias.
  have hhid : ∀ e k, IsReal (hid rbf f1w f1b e k) := fun e k => by
    unfold hid
    exact (isReal_sum _ _ fun i _ => (hrbf _).mul (hf1w _)).add (hf1b _)
  -- The filter: a finite sum of products of reals, plus a real bias, times the real envelope.
  have hphi : ∀ e s, IsReal (phi rbf env f1w f1b f2w f2b e s) := fun e s => by
    unfold phi
    exact ((isReal_sum _ _ fun k _ => (hsilu _ (hhid e k)).mul (hf2w _)).add (hf2b _)).mul (henv _)
  -- The projection of a node: a finite sum of products of reals.
  have hproj : ∀ n s, IsReal (proj x ws n s) := fun n s => by
    unfold proj
    exact isReal_sum _ _ fun k _ => (hx _).mul (hws _)
  unfold stalkA stalk
  exact (hphi _ _).mul (hproj _ _)

end Cert.Spec

end
-- ==== Proof.PreFacts.lean ====
/-
  What the precondition says, entry by entry.

  The precondition is one bit: the conjunction, over the fifteen float inputs, of "every entry's magnitude is below
  +∞", and of "every source word lies in [-100000, 100000)".  When the bit is one, every entry of every float input is
  a real number and every source word passes both comparisons.
-/
import proofs.«403891_j71880572666398_2_alg».proof.Pre_finite_inputs
import proofs.«403891_j71880572666398_2_alg».proof.Proof.Gen.Pre_finite_inputs
import proofs.«403891_j71880572666398_2_alg».proof.Proof.Spec
import proofs.«403891_j71880572666398_2_alg».proof.Proof.LibReal
import Idealize.ShloMosaic.Lib.ReduceAll
import Idealize.ShloMosaic.Lib.ValueIdx
import Idealize.ShloMosaic.Lib.ValueLayout
import Idealize.ShloMosaic.Lib.StableHlo.Predicate

set_option maxRecDepth 16384

noncomputable section

namespace Cert.PreFacts

open Idealize.ShloMosaic Idealize.ShloMosaic.ValueIdx Cert.Spec Cert.RealVal

open Cert.Pre_finite_inputs in
/-- The scalar shape has one index. -/
instance : Subsingleton S_.Idx := ⟨fun a b => funext fun d => d.elim0⟩

/-- The word `0x7F800000` encodes +∞. -/
theorem ofBits_inf : Ideal.ofBits .f32 0x7F800000#32 = (⊤ : EReal) := by
  simp [Ideal.ofBits, Ideal.ieee]

/-- An extended real whose magnitude is below +∞ is a real number. -/
theorem isReal_of_abs_lt_top {x : EReal} (h : max x (-x) < ⊤) : IsReal x := by
  induction x using EReal.rec with
  | bot => simp at h
  | coe r => exact ⟨r, rfl⟩
  | top => simp at h

/-- A conjunction of two bit arrays that is one at an index has both bits one there. -/
theorem and_split {s : Shape} {x y : IVec s 1} {i : s.Idx} (h : andi x y i = 1#1) : x i = 1#1 ∧ y i = 1#1 :=
  IntOp.andi_eq_one.1 h

open Cert.Pre_finite_inputs in
/-- "Every entry's magnitude is below +∞", and-reduced to one bit that is one: every entry is a real number. -/
theorem real_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
        (cmpf (F := Ideal) .olt (Host.absf (F := Ideal) x) (broadcastInDim s ![] hb (constant (F := Ideal) S_ .f32 0x7F800000#32)))
        (constantI S_ 1 1#1) hr h0 ix0 = 1#1) :
    ∀ j, IsReal (x j) := by
  intro j
  have hj : Ideal.cmp .olt (max (x j) (-(x j))) (Ideal.ofBits .f32 0x7F800000#32) = 1#1 :=
    Host.reduce_andi_all _ _ hr h0 ix0 e j
  rw [ofBits_inf] at hj
  unfold Ideal.cmp at hj
  rw [StableHlo.Predicate.ofBool_eq_one_iff, decide_eq_true_eq] at hj
  exact isReal_of_abs_lt_top hj

open Cert.Pre_finite_inputs in
/-- "Every word of the first row lies in the printed range", and-reduced to one bit that is one: every word of the
    first row passes both comparisons.  The first row is read as a slice of the two-row array reshaped to a vector. -/
theorem range_of_all {n : Nat} (lo hi : BitVec 32) (a : IVec ⟨2, ![2, n]⟩ 32)
    (hs : (⟨2, ![2, n]⟩ : Shape).Slices ![0, 0] ⟨2, ![1, n]⟩) (hc : (⟨2, ![1, n]⟩ : Shape).ShapeCasts ⟨1, ![n]⟩)
    (hb : S_.BroadcastsInDim ⟨1, ![n]⟩ (![] : Fin 0 → Fin 1)) (hr : (⟨1, ![n]⟩ : Shape).ReducesTo [0] S_)
    (h0 : 0 < S_.numel)
    (e : Host.reduce IntOp.andi
        (andi
          (cmpi .sge (shapeCast ⟨1, ![n]⟩ (extractStridedSlice ⟨2, ![1, n]⟩ ![0, 0] a hs) hc)
            (broadcastInDim ⟨1, ![n]⟩ ![] hb (constantI S_ 32 lo)))
          (cmpi .slt (shapeCast ⟨1, ![n]⟩ (extractStridedSlice ⟨2, ![1, n]⟩ ![0, 0] a hs) hc)
            (broadcastInDim ⟨1, ![n]⟩ ![] hb (constantI S_ 32 hi))))
        (constantI S_ 1 1#1) hr h0 ix0 = 1#1) :
    ∀ k : Fin n, IntOp.cmpi .sge (a (ix2 0 k)) lo = 1#1 ∧ IntOp.cmpi .slt (a (ix2 0 k)) hi = 1#1 := by
  intro k
  -- the slice reshaped, read at `k`, is the array at `(0, k)`
  have hread : shapeCast ⟨1, ![n]⟩ (extractStridedSlice ⟨2, ![1, n]⟩ ![0, 0] a hs) hc (ix1 k) = a (ix2 0 k) :=
    (shapeCast_1a_a_apply _ hc k).trans
      (extractStridedSlice_apply _ a hs _ _ (fun b => match b with
        | ⟨0, _⟩ => rfl
        | ⟨1, _⟩ => by show k.val = 0 + k.val; omega))
  obtain ⟨h1, h2⟩ := and_split (Host.reduce_andi_all _ _ hr h0 ix0 e (ix1 k))
  have h1' : IntOp.cmpi .sge (shapeCast ⟨1, ![n]⟩ (extractStridedSlice ⟨2, ![1, n]⟩ ![0, 0] a hs) hc (ix1 k)) lo = 1#1 := h1
  have h2' : IntOp.cmpi .slt (shapeCast ⟨1, ![n]⟩ (extractStridedSlice ⟨2, ![1, n]⟩ ![0, 0] a hs) hc (ix1 k)) hi = 1#1 := h2
  rw [hread] at h1' h2'
  exact ⟨h1', h2'⟩

/-- From the precondition's bit: the nine float inputs the stalk messages read are real, entry by entry, and every
    source word passes the two range comparisons. -/
theorem of_pre (a0 : A2 100000 128) (a1 : I2 2 1600000) (a2 : A2 1600000 32) (a3 : A1 1600000) (a4 a5 : A2 64 128)
    (a6 : A2 128 32) (a7 : A1 128) (a8 : A2 64 128) (a9 : A1 64) (a10 : A2 128 128) (a11 : A1 128) (a12 : A2 128 128)
    (a13 a14 a15 : A1 128)
    (h : Cert.Pre_finite_inputs.fn (F := Ideal) a0 a1 a2 a3 a4 a5 a6 a7 a8 a9 a10 a11 a12 a13 a14 a15 = (fun _ => 1#1)) :
    (∀ j, IsReal (a0 j)) ∧ (∀ j, IsReal (a2 j)) ∧ (∀ j, IsReal (a3 j)) ∧ (∀ j, IsReal (a4 j)) ∧ (∀ j, IsReal (a5 j))
      ∧ (∀ j, IsReal (a6 j)) ∧ (∀ j, IsReal (a7 j)) ∧ (∀ j, IsReal (a8 j)) ∧ (∀ j, IsReal (a9 j))
      ∧ ∀ e : Fin 1600000, IntOp.cmpi .sge (a1 (ix2 0 e)) 4294867296#32 = 1#1 ∧ IntOp.cmpi .slt (a1 (ix2 0 e)) 100000#32 = 1#1 := by
  -- the bit is a left-nested conjunction of sixteen and-reductions: peel it from the outside
  have h84 := congrFun h ix0
  obtain ⟨h73, e83⟩ := and_split h84
  obtain ⟨h68, e72⟩ := and_split h73
  obtain ⟨h63, e67⟩ := and_split h68
  obtain ⟨h58, e62⟩ := and_split h63
  obtain ⟨h53, e57⟩ := and_split h58
  obtain ⟨h48, e52⟩ := and_split h53
  obtain ⟨h43, e47⟩ := and_split h48
  obtain ⟨h38, e42⟩ := and_split h43
  obtain ⟨h33, e37⟩ := and_split h38
  obtain ⟨h28, e32⟩ := and_split h33
  obtain ⟨h23, e27⟩ := and_split h28
  obtain ⟨h18, e22⟩ := and_split h23
  obtain ⟨h13, e17⟩ := and_split h18
  obtain ⟨h8, e12⟩ := and_split h13
  obtain ⟨e3, e7⟩ := and_split h8
  exact ⟨real_of_all a0 _ _ _ e3, real_of_all a2 _ _ _ e7, real_of_all a3 _ _ _ e12, real_of_all a4 _ _ _ e17,
    real_of_all a5 _ _ _ e22, real_of_all a6 _ _ _ e27, real_of_all a7 _ _ _ e32, real_of_all a8 _ _ _ e37,
    real_of_all a9 _ _ _ e42, range_of_all _ _ a1 _ _ _ _ _ e83⟩

end Cert.PreFacts

end
-- ==== Proof.lean ====
/-
  One message-passing layer of a graph network: a kernel program of three kernel regions against a plain reference.

  Both programs compute, for every node, the normalised sum of the node's own features and a gate of the messages
  that reach it.  A message travels along an edge: the source node's features are projected into a 64-dimensional
  stalk, multiplied component by component by a filter of the edge's radial features and envelope, added up over the
  edges that point at the target node, and mapped back to 128 node features through `W_recv`.

  The two programs differ in three places.
    * The kernel projects all nodes first and then gathers the projected rows of the edges' sources; the reference
      gathers the sources' feature rows and projects those.  A gather selects rows, so the two agree row by row.
    * The kernel's gather replaces a row whose source word falls outside the table by a fill value, while the
      reference clamps the word.  Under the precondition every source word lies in [-100000, 100000), where a word
      counted from the end wraps into the table and neither the fill nor the clamp is ever used.
    * The kernel adds the stalk messages of a node's incoming edges and maps the SUM through `W_recv`; the reference maps
      every message through `W_recv` and adds the results.  These agree by distributivity, which holds on the extended
      reals because, the float inputs being finite, every stalk message and every entry of `W_recv` is a real number.
  Everything after that point (the gate, the residual and the normalisation of each row) is the same function of the
  aggregated features in both programs.
-/
import proofs.«403891_j71880572666398_2_alg».proof.Defs
import proofs.«403891_j71880572666398_2_alg».proof.Proof.Gen.Kernel
import proofs.«403891_j71880572666398_2_alg».proof.Proof.Gen.Kernel.Frame
import proofs.«403891_j71880572666398_2_alg».proof.Proof.Gen.KernelIdeal
import proofs.«403891_j71880572666398_2_alg».proof.Proof.Gen.KernelIdeal.Frame
import proofs.«403891_j71880572666398_2_alg».proof.Proof.Gen.ReferenceIdeal
import proofs.«403891_j71880572666398_2_alg».proof.Proof.Gen.ReferenceIdeal.Run
import proofs.«403891_j71880572666398_2_alg».proof.Proof.Gen.ReferenceIdeal.Read
import proofs.«403891_j71880572666398_2_alg».proof.Proof.Gen.Pre_finite_inputs
import proofs.«403891_j71880572666398_2_alg».proof.Proof.KRun
import proofs.«403891_j71880572666398_2_alg».proof.Proof.KStage3
import proofs.«403891_j71880572666398_2_alg».proof.Proof.RStalk
import proofs.«403891_j71880572666398_2_alg».proof.Proof.RTail
import proofs.«403891_j71880572666398_2_alg».proof.Proof.Exchange
import proofs.«403891_j71880572666398_2_alg».proof.Proof.SpecReal
import proofs.«403891_j71880572666398_2_alg».proof.Proof.PreFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.Spec Cert.RealVal

/-- The reference's result as the same function of the arguments as the kernel program's: its aggregated features are
    the scatter of the messages mapped through `W_recv`, which is the kernel's scatter of the stalk messages mapped through
    `W_recv` afterwards, the stalk messages and `W_recv` being real. -/
theorem reference_value (x0 : A2 100000 128) (x1 : I2 2 1600000) (x2 : A2 1600000 32) (x3 : A1 1600000) (x4 x5 : A2 64 128)
    (x6 : A2 128 32) (x7 : A1 128) (x8 : A2 64 128) (x9 : A1 64) (x10 : A2 128 128) (x11 : A1 128) (x12 : A2 128 128)
    (x13 x14 x15 : A1 128)
    (hx : ∀ j, IsReal (x0 j)) (hrbf : ∀ j, IsReal (x2 j)) (henv : ∀ j, IsReal (x3 j)) (hws : ∀ j, IsReal (x4 j))
    (hwr : ∀ j, IsReal (x5 j)) (hf1w : ∀ j, IsReal (x6 j)) (hf1b : ∀ j, IsReal (x7 j)) (hf2w : ∀ j, IsReal (x8 j))
    (hf2b : ∀ j, IsReal (x9 j)) :
    Cert.ReferenceIdeal.Read.val_main_v67 (F := Ideal) x0 x1 x2 x3 x4 x5 x6 x7 x8 x9 x10 x11 x12 x13 x14 x15
      = tail (recv (Ideal.hostScatterAdd Cert.KernelIdeal.scatter_S100000x64_S1600000x1_S1600000x64_1_0_0_1 (fun _ => 0)
            (tgtIdx x1) (stalkA x0 x1 x2 x3 x4 x6 x7 x8 x9)) x5) x0 x10 x11 x12 x13 x14 x15 := by
  rw [Cert.ReferenceIdeal.RefVal.v67_eq]
  refine congrArg (fun a => tail a x0 x10 x11 x12 x13 x14 x15) ?_
  show Ideal.hostScatterAdd Cert.ReferenceIdeal.scatter_S100000x128_S1600000x1_S1600000x128_1_0_0_1
      (Cert.ReferenceIdeal.Read.val_main_v29 (F := Ideal)) (Cert.ReferenceIdeal.Read.val_main_v30 (F := Ideal) x1)
      (Cert.ReferenceIdeal.Read.val_main_v28 (F := Ideal) x0 x1 x2 x3 x4 x5 x6 x7 x8 x9) = _
  rw [Cert.ReferenceIdeal.RefVal.v29_eq, Cert.ReferenceIdeal.RefVal.v30_eq, Cert.ReferenceIdeal.RefVal.v28_eq]
  exact (Cert.Exchange.recv_scatter Cert.KernelIdeal.scatter_S100000x64_S1600000x1_S1600000x64_1_0_0_1.wf
    Cert.ReferenceIdeal.scatter_S100000x128_S1600000x1_S1600000x128_1_0_0_1.wf (tgtIdx x1)
    (stalkA x0 x1 x2 x3 x4 x6 x7 x8 x9) x5
    (stalkA_isReal x0 x1 x2 x3 x4 x6 x7 x8 x9 hx hrbf henv hws hf1w hf1b hf2w hf2b) hwr).symm

/-- The word-level kernel program runs and leaves its arguments alone: its generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a host program: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same result array: the kernel program's is
    read off its run region by region, the reference's off its run operation by operation, and the two are one function
    of the arguments under the precondition. -/
theorem algebraic : Cert.algebraic_KernelIdeal_ReferenceIdeal := by
  intro m ρ m' ρ' hpre hagree
  refine ⟨fun c => Cert.KernelIdeal.Gen.W7 (F := Ideal) m ρ c (Proc.devRef .tc Cert.KernelIdeal.main_v22),
    Cert.KernelIdeal.RunValue.run_value m ρ, ?_⟩
  refine (θ_run Cert.ReferenceIdeal.defs _ _).mono (fun r h c => ⟨(h c).1.trans ?_, (h c).2⟩)
    (Cert.ReferenceIdeal.Value.run (F := Ideal) m' ρ')
  obtain ⟨hx, hrbf, henv, hws, hwr, hf1w, hf1b, hf2w, hf2b, hsrc⟩ := Cert.PreFacts.of_pre _ _ _ _ _ _ _ _ _ _ _ _ _ _ _ _ (hpre c)
  obtain ⟨e0, e1, e2, e3, e4, e5, e6, e7, e8, e9, e10, e11, e12, e13, e14, e15⟩ := hagree c
  rw [Cert.ReferenceIdeal.Read.val_main_v67_eq, e0, e1, e2, e3, e4, e5, e6, e7, e8, e9, e10, e11, e12, e13, e14, e15]
  exact (reference_value _ _ _ _ _ _ _ _ _ _ _ _ _ _ _ _ hx hrbf henv hws hwr hf1w hf1b hf2w hf2b).trans
    (Cert.KernelIdeal.Val.kernel_value m ρ c hsrc).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
